-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S512 .f32) (main_arg7 : FVec F S512 .f32) (main_arg8 : FVec F S512x256 .f32) (main_arg9 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x512 .f32) (main_arg5 : FVec F S512 .f32) (main_arg6 : FVec F S512 .f32) (main_arg7 : FVec F S512 .f32) (main_arg8 : FVec F S512x256 .f32) (main_arg9 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x512 .f32 := Host.absf main_arg4
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S1x512 : Shape := ⟨2, ![1, 512]⟩
abbrev S1x256 : Shape := ⟨2, ![1, 256]⟩
abbrev S2x512 : Shape := ⟨2, ![2, 512]⟩
abbrev S2000x128 : Shape := ⟨2, ![2000, 128]⟩
abbrev S2000x512 : Shape := ⟨2, ![2000, 512]⟩
abbrev S100000x256 : Shape := ⟨2, ![100000, 256]⟩
abbrev S2000x256 : Shape := ⟨2, ![2000, 256]⟩

abbrev nBuf : Space → Nat
  | .hbm => 52
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x512, .f32⟩
  | .hbm, ⟨27, _⟩ => ⟨S1x256, .f32⟩
  | .hbm, ⟨28, _⟩ => ⟨S2x512, .f32⟩
  | .hbm, ⟨29, _⟩ => ⟨S1x512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S1x512, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S1x512, .f32⟩
  | .hbm, ⟨51, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .f32⟩
  | .local _ .vmem, ⟨5, _⟩ => ⟨S1x512, .f32⟩
  | .local _ .vmem, ⟨6, _⟩ => ⟨S2x512, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S512_S1x512 : S512.ShapeCasts S1x512
  shapeCasts_S256_S1x256 : S256.ShapeCasts S1x256
  inb_S2x512_S2x512_0_0 : ∀ a, (![0, 0] : Fin 2 → Nat) a + S2x512.size a ≤ S2x512.size a
  h_S2x512 : 0 < S2x512.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S512 : S2000x512.Reduces [0] S512
  concatenates_S1x512_S1x512_S2x512_d0 : Shape.Concatenates [S1x512, S1x512] S2x512 0
  shapeCasts_S2x512_S2x512 : S2x512.ShapeCasts S2x512
  slices_S2x512_S1x512_0_0 : S2x512.Slices ![0, 0] S1x512
  shapeCasts_S1x512_S512 : S1x512.ShapeCasts S512
  bcast_S_S512 : S_.BroadcastsInDim S512 (![] : Fin 0 → Fin S512.rank)
  slices_S2x512_S1x512_1_0 : S2x512.Slices ![1, 0] S1x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x512.size a
  hwx0_4 : ∀ i : grid0.Coords, EltTy.bits .f32 = 32 ∨ (Rect.block (s := S2x512) S2x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .f32 = 32 ∨ (Rect.block (s := S512x256) S512x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S100000x256.size a
  hwx1_8 : ∀ i : grid1.Coords, EltTy.bits .f32 = 32 ∨ (Rect.block (s := S100000x256) S2000x256.size (cc1_transform_8 i) (hinb1_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S100000x512 : Shape := ⟨2, ![100000, 512]⟩
abbrev S1x512 : Shape := ⟨2, ![1, 512]⟩
abbrev S100000x256 : Shape := ⟨2, ![100000, 256]⟩
abbrev S1x256 : Shape := ⟨2, ![1, 256]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x512, .f32⟩
  | .hbm, ⟨31, _⟩ => ⟨S1x512, .f32⟩
  | .hbm, ⟨32, _⟩ => ⟨S100000x512, .f32⟩
  | .hbm, ⟨33, _⟩ => ⟨S100000x512, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S_, .i32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S100000x512, .f32⟩
  | .hbm, ⟨47, _⟩ => ⟨S100000x512, .f32⟩
  | .hbm, ⟨48, _⟩ => ⟨S100000x512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S100000x512, .f32⟩
  | .hbm, ⟨64, _⟩ => ⟨S100000x512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S1x512, .f32⟩
  | .hbm, ⟨70, _⟩ => ⟨S100000x512, .f32⟩
  | .hbm, ⟨71, _⟩ => ⟨S100000x512, .f32⟩
  | .hbm, ⟨72, _⟩ => ⟨S1x512, .f32⟩
  | .hbm, ⟨73, _⟩ => ⟨S100000x512, .f32⟩
  | .hbm, ⟨74, _⟩ => ⟨S100000x512, .f32⟩
  | .hbm, ⟨75, _⟩ => ⟨S1x512, .f32⟩
  | .hbm, ⟨76, _⟩ => ⟨S100000x512, .f32⟩
  | .hbm, ⟨77, _⟩ => ⟨S100000x512, .f32⟩
  | .hbm, ⟨78, _⟩ => ⟨S_, .f32⟩
  | .hbm, ⟨79, _⟩ => ⟨S100000x512, .f32⟩
  | .hbm, ⟨80, _⟩ => ⟨S100000x512, .f32⟩
  | .hbm, ⟨81, _⟩ => ⟨S100000x256, .f32⟩
  | .hbm, ⟨82, _⟩ => ⟨S1x256, .f32⟩
  | .hbm, ⟨83, _⟩ => ⟨S100000x256, .f32⟩
  | .hbm, ⟨84, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_cst : Ref sig .tc := ⟨.hbm, 78, rfl⟩
abbrev main_call1_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S512_d0 : S100000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S100000x512 : S_.BroadcastsInDim S100000x512 (![] : Fin 0 → Fin S100000x512.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []
  dot_S100000x512_S512x256_S100000x256_1_0_0_1_n_n_wf : DotDims.WF S100000x512 S512x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf

class Facts : Prop extends Facts₀ where

variable [Facts]
-- ==== Proof.Spec.lean ====
/-
  The message-passing layer as mathematics, at the ideal values.

  Nodes carry 128 features. With `a` the weighted neighbour sum, a node's hidden row is `1·x + a`; the first linear map
  sends it to 512 features and adds a bias (`pre1`). Batch normalisation takes, per feature, the mean and the biased
  variance over all 100000 nodes, scales by `γ / sqrt(var + ε)` and shifts by `β`; a rectifier and a second linear map
  into 256 features follow.

  Two spellings of this are stated. The blocked program keeps, per feature, the column sum and the column sum of squares
  (`statsArr`), forms the variance as `E[u²] − E[u]²` and folds the normalisation into one multiply-add
  `u·scale + shift` (`kernelOut`). The plain program centres first: `(u − mean)·rsqrt(var + ε)·γ + β` with
  `var = E[(u − mean)²]` (`refOut`). Over finite numbers the two agree; the agreement is proved in Bridge.lean.
-/
import Idealize.ShloMosaic.PureOps.Ideal.Laws
import Idealize.ShloMosaic.Lib.ValueIdx

noncomputable section

namespace Cert.Gin

open Idealize.ShloMosaic Idealize.ShloMosaic.ValueIdx

/-- The f32 literals the two programs spell, as extended reals. -/
abbrev one32 : EReal := Ideal.ofBits .f32 0x3F800000#32
abbrev zero32 : EReal := Ideal.ofBits .f32 0x00000000#32
/-- The node count as both programs divide by it. -/
abbrev cnt32 : EReal := Ideal.ofBits .f32 0x47C35000#32
/-- The variance's guard ε. -/
abbrev eps32 : EReal := Ideal.ofBits .f32 0x3727C5AC#32

theorem one32_eq : one32 = ((1 : ℝ) : EReal) := by
  simp [one32, Ideal.ofBits, Ideal.ieee, -EReal.coe_mul]; norm_num

theorem zero32_eq : zero32 = 0 := by simp [zero32, Ideal.ofBits, Ideal.ieee]

/-- The divisor is exactly the number of nodes. -/
theorem cnt32_eq : cnt32 = ((100000 : ℝ) : EReal) := by
  simp [cnt32, Ideal.ofBits, Ideal.ieee, -EReal.coe_mul]; norm_num

/-- ε is a positive real. -/
theorem eps32_pos : ∃ e : ℝ, 0 < e ∧ eps32 = ((e : ℝ) : EReal) := by
  refine ⟨_, ?_, by simp [eps32, Ideal.ofBits, Ideal.ieee, -EReal.coe_mul]; rfl⟩
  norm_num

/-- The first linear map's output at node `i`, feature `j`: the hidden row `1·x + a` against column `j` of `w1`, plus the bias. -/
def pre1 (x a : FVec Ideal ⟨2, ![100000, 128]⟩ .f32) (w1 : FVec Ideal ⟨2, ![128, 512]⟩ .f32) (b1 : Fin 512 → EReal)
    (i : Fin 100000) (j : Fin 512) : EReal :=
  (∑ d : Fin 128, (one32 * x (ix2 i d) + a (ix2 i d)) * w1 (ix2 d j)) + b1 j

/-- Row 0: each feature's sum over all nodes; row 1: each feature's sum of squares over all nodes. -/
def statsArr (U : Fin 100000 → Fin 512 → EReal) : FVec Ideal ⟨2, ![2, 512]⟩ .f32 :=
  fun y => if (y 0).val = 0 then ∑ i : Fin 100000, U i ⟨(y 1).val, idx2_lt1 y⟩
    else ∑ i : Fin 100000, U i ⟨(y 1).val, idx2_lt1 y⟩ * U i ⟨(y 1).val, idx2_lt1 y⟩

/-! ### The blocked program's normalisation: from the two column sums -/

def meanK (S : FVec Ideal ⟨2, ![2, 512]⟩ .f32) (j : Fin 512) : EReal := Ideal.div (S (ix2 0 j)) cnt32
def msqK (S : FVec Ideal ⟨2, ![2, 512]⟩ .f32) (j : Fin 512) : EReal := Ideal.div (S (ix2 1 j)) cnt32
def invK (S : FVec Ideal ⟨2, ![2, 512]⟩ .f32) (j : Fin 512) : EReal :=
  Ideal.rsqrt ((msqK S j - meanK S j * meanK S j) + eps32)
def scaleK (S : FVec Ideal ⟨2, ![2, 512]⟩ .f32) (γ : Fin 512 → EReal) (j : Fin 512) : EReal := γ j * invK S j
def shiftK (S : FVec Ideal ⟨2, ![2, 512]⟩ .f32) (γ β : Fin 512 → EReal) (j : Fin 512) : EReal :=
  β j - (meanK S j * γ j) * invK S j

/-- Normalise by one multiply-add, then rectify. -/
def actK (U : Fin 100000 → Fin 512 → EReal) (sc sh : Fin 512 → EReal) (i : Fin 100000) (j : Fin 512) : EReal :=
  max (U i j * sc j + sh j) zero32

/-- The second linear map: activations against `w2`, plus the bias, as a whole array. -/
def lin2 (A : Fin 100000 → Fin 512 → EReal) (w2 : FVec Ideal ⟨2, ![512, 256]⟩ .f32) (b2 : Fin 256 → EReal) :
    FVec Ideal ⟨2, ![100000, 256]⟩ .f32 :=
  fun y => (∑ j : Fin 512, A ⟨(y 0).val, idx2_lt0 y⟩ j * w2 (ix2 j ⟨(y 1).val, idx2_lt1 y⟩)) + b2 ⟨(y 1).val, idx2_lt1 y⟩

theorem lin2_apply (A : Fin 100000 → Fin 512 → EReal) (w2 : FVec Ideal ⟨2, ![512, 256]⟩ .f32) (b2 : Fin 256 → EReal)
    (p : Fin 100000) (q : Fin 256) : lin2 A w2 b2 (ix2 p q) = (∑ j : Fin 512, A p j * w2 (ix2 j q)) + b2 q := rfl

/-- What the second launch computes from its eight operands: the scale and shift rows are given. -/
def mlpOut (x a : FVec Ideal ⟨2, ![100000, 128]⟩ .f32) (w1 : FVec Ideal ⟨2, ![128, 512]⟩ .f32) (b1 sc sh : Fin 512 → EReal)
    (w2 : FVec Ideal ⟨2, ![512, 256]⟩ .f32) (b2 : Fin 256 → EReal) : FVec Ideal ⟨2, ![100000, 256]⟩ .f32 :=
  lin2 (actK (pre1 x a w1 b1) sc sh) w2 b2

/-- The blocked program end to end, as a function of the inputs and the neighbour sum. -/
def kernelOut (x a : FVec Ideal ⟨2, ![100000, 128]⟩ .f32) (w1 : FVec Ideal ⟨2, ![128, 512]⟩ .f32) (b1 γ β : Fin 512 → EReal)
    (w2 : FVec Ideal ⟨2, ![512, 256]⟩ .f32) (b2 : Fin 256 → EReal) : FVec Ideal ⟨2, ![100000, 256]⟩ .f32 :=
  mlpOut x a w1 b1 (scaleK (statsArr (pre1 x a w1 b1)) γ) (shiftK (statsArr (pre1 x a w1 b1)) γ β) w2 b2

/-! ### The plain program's normalisation: centre, then scale -/

def meanR (U : Fin 100000 → Fin 512 → EReal) (j : Fin 512) : EReal := Ideal.div (zero32 + ∑ i : Fin 100000, U i j) cnt32
def varR (U : Fin 100000 → Fin 512 → EReal) (j : Fin 512) : EReal :=
  Ideal.div (zero32 + ∑ i : Fin 100000, (U i j - meanR U j) * (U i j - meanR U j)) cnt32
def actR (U : Fin 100000 → Fin 512 → EReal) (γ β : Fin 512 → EReal) (i : Fin 100000) (j : Fin 512) : EReal :=
  max ((((U i j - meanR U j) * Ideal.rsqrt (varR U j + eps32)) * γ j) + β j) zero32

/-- The plain program end to end, as a function of the inputs and the neighbour sum. -/
def refOut (x a : FVec Ideal ⟨2, ![100000, 128]⟩ .f32) (w1 : FVec Ideal ⟨2, ![128, 512]⟩ .f32) (b1 γ β : Fin 512 → EReal)
    (w2 : FVec Ideal ⟨2, ![512, 256]⟩ .f32) (b2 : Fin 256 → EReal) : FVec Ideal ⟨2, ![100000, 256]⟩ .f32 :=
  lin2 (actR (pre1 x a w1 b1) γ β) w2 b2

/-- An entry is a real number. -/
def Fin32 {s : Shape} (v : FVec Ideal s .f32) : Prop := ∀ i, ∃ r : ℝ, v i = ((r : ℝ) : EReal)
def FinRow {n : ℕ} (v : Fin n → EReal) : Prop := ∀ i, ∃ r : ℝ, v i = ((r : ℝ) : EReal)

end Cert.Gin

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Reg0Value.lean ====
/-
  The first launch's result array: per feature, the sum and the sum of squares, over all nodes, of the first linear
  map's output.

  The launch walks the 100000 nodes in fifty blocks of 2000 rows. One 2 × 512 accumulator block stays in place through
  the walk. At the first block it is set to zero. At every block t it then gains, in row 0, the column sums
  ∑ r<2000, u(2000 t + r, j) of the block's 2000 × 512 array of values
  u(i, j) = (∑ d<128, (1·x(i, d) + a(i, d)) · w1(d, j)) + b1(j), and in row 1 the column sums of u². The narrowing of the
  two factors before the product changes nothing at the ideal values. The block is written back once, after block 49.

  Over the extended reals addition is commutative and associative and the zero word is 0, so the ordered chain
  ((0 + δ₀) + δ₁) + … + δ₄₉ is the sum over t < 50 of the block sums; writing a node as i = 2000 t + r turns that double
  sum into the sum over all nodes. Row 0 ends at ∑ i, u(i, j) and row 1 at ∑ i, u(i, j)².

  In order: what the body leaves in the accumulator at the first point and at a later one; the update read at an
  entry; the blocks read off the whole arrays; the ordered sum and its re-indexing; the accumulator after each point,
  by induction on the point; the single write-back and the result array.
-/
import proofs.«109966_j65283502899905_1_alg».proof.Proof.Gen.KernelIdeal.Frame
import proofs.«109966_j65283502899905_1_alg».proof.Proof.Spec
import proofs.«109966_j65283502899905_1_alg».proof.Proof.LibDot
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

section Pieces
variable {F : FTy → Type} [FloatOps F]

theorem hz : (![0, 0] : Fin 2 → Nat) = fun _ => 0 := funext fun a => by fin_cases a <;> rfl

theorem out_B (c : Dev nD) (i : grid0.Coords)
    (a1 : Memref sig .tc .vmem S2000x128 .f32) (h1 : a1.IsWhole) (a2 : Memref sig .tc .vmem S2000x128 .f32) (h2 : a2.IsWhole)
    (a3 : Memref sig .tc .vmem S128x512 .f32) (h3 : a3.IsWhole) (a4 : Memref sig .tc .vmem S1x512 .f32) (h4 : a4.IsWhole)
    (a5 : Memref sig .tc .vmem S2x512 .f32) (h5 : a5.IsWhole) (hc : ¬cond0_0 i)
    (x0 x1 : Vec F S2000x128 .f32) (x2 : Vec F S128x512 .f32) (x3 : Vec F S1x512 .f32) (xo : Vec F S2x512 .f32) :
    out0_B_4 c i a1 h1 a2 h2 a3 h3 a4 h4 a5 h5 hc x0 x1 x2 x3 xo = k0_pay2 x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S128x512) hz, View.ld_unit_zero (S := S1x512) hz,
    View.ld_unit_zero (S := S2x512) hz]

theorem out_A (c : Dev nD) (i : grid0.Coords)
    (a1 : Memref sig .tc .vmem S2000x128 .f32) (h1 : a1.IsWhole) (a2 : Memref sig .tc .vmem S2000x128 .f32) (h2 : a2.IsWhole)
    (a3 : Memref sig .tc .vmem S128x512 .f32) (h3 : a3.IsWhole) (a4 : Memref sig .tc .vmem S1x512 .f32) (h4 : a4.IsWhole)
    (a5 : Memref sig .tc .vmem S2x512 .f32) (h5 : a5.IsWhole) (hc : cond0_0 i)
    (x0 x1 : Vec F S2000x128 .f32) (x2 : Vec F S128x512 .f32) (x3 : Vec F S1x512 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S2x512) hz, View.readCov_unit_zero (S := S2x512) _ hz]
  simp only [View.readAt_eq_ld, h1.read_unread, h2.read_unread, h3.read_unread, h4.read_unread,
    View.ld_unit_zero (S := S2000x128) hz, View.ld_unit_zero (S := S128x512) hz, View.ld_unit_zero (S := S1x512) hz]

end Pieces

section Payload

/-- Within one row block: the hidden row `1·x + a` of local node `r` against column `j` of the weights, plus the bias. -/
def uBlk (x0 x1 : FVec Ideal S2000x128 .f32) (x2 : FVec Ideal S128x512 .f32) (x3 : FVec Ideal S1x512 .f32)
    (r : Fin 2000) (j : Fin 512) : EReal :=
  (∑ d : Fin 128, (Cert.Gin.one32 * x0 (ix2 r d) + x1 (ix2 r d)) * x2 (ix2 d j)) + x3 (ix2 0 j)

/-- The block's 2000 × 512 array of those values, as the body computes it. -/
def preArr (x0 x1 : FVec Ideal S2000x128 .f32) (x2 : FVec Ideal S128x512 .f32) (x3 : FVec Ideal S1x512 .f32) :
    FVec Ideal S2000x512 .f32 :=
  addf (matmul dot_S2000x128_S128x512_S2000x512_1_0_0_1_n_n none
      (truncf .bf16 (addf (mulf (broadcast S2000x128 (Scalar.ofBits .f32 0x3F800000#32)) x0)
        (shapeCast S2000x128 x1 shapeCasts_S2000x128_S2000x128)) bitsLt_bf16_f32)
      (truncf .bf16 x2 bitsLt_bf16_f32) (constant S2000x512 .f32 0x00000000#32))
    (broadcastTo S2000x512 (shapeCast S1x512 x3 shapeCasts_S1x512_S1x512) broadcasts_S1x512_S2000x512)

/-- The product's dimension record is the plain rows-by-columns one. -/
theorem dot_eq : dot_S2000x128_S128x512_S2000x512_1_0_0_1_n_n = DotDims.plain 2000 128 512 := rfl

theorem preArr_apply (x0 x1 : FVec Ideal S2000x128 .f32) (x2 : FVec Ideal S128x512 .f32) (x3 : FVec Ideal S1x512 .f32)
    (r : Fin 2000) (j : Fin 512) : preArr x0 x1 x2 x3 (ix2 r j) = uBlk x0 x1 x2 x3 r j := by
  unfold preArr uBlk
  rw [addf_apply, broadcastTo_1b_ab_apply, shapeCast_self, shapeCast_self, dot_eq]
  refine congrArg (· + x3 (ix2 0 j)) ?_
  refine (Cert.GNN.matmul_plain_zero_apply none _ _ r j).trans ?_
  refine Finset.sum_congr rfl fun d _ => ?_
  rw [truncf_apply, truncf_apply, addf_apply, mulf_apply, broadcast_apply]
  rfl

/-- A sum down the 2000 rows, read at column `j`. -/
theorem colsum_apply (A : FVec Ideal S2000x512 .f32) (j : Fin 512) :
    multiReduction (F := Ideal) .add [0] S512 A 0x00000000#32 reduces_S2000x512_S512 (.inl rfl) rfl (ix1 j)
      = ∑ r : Fin 2000, A (ix2 r j) := by
  refine (Ideal.multiReduction_add_single A 0x00000000#32 reduces_S2000x512_S512 (.inl rfl) rfl (ix1 j)).trans ?_
  refine Finset.sum_congr rfl fun r _ => congrArg A ?_
  funext a
  match a with
  | ⟨0, _⟩ => rfl
  | ⟨1, _⟩ => rfl

/-- Two rows stacked: row 0 is the first. -/
theorem stack_row0 (v w : FVec Ideal S1x512 .f32) (j : Fin 512) :
    concatenate S2x512 0 [⟨S1x512, v⟩, ⟨S1x512, w⟩] concatenates_S1x512_S1x512_S2x512_d0 (ix2 (0 : Fin 2) j) = v (ix2 (0 : Fin 1) j) :=
  concatenate_pair_apply_left (0 : Fin S2x512.rank) v w concatenates_S1x512_S1x512_S2x512_d0 (ix2 (0 : Fin 2) j) rfl
    (ix2 (0 : Fin 1) j) fun b => by
      match b with
      | ⟨0, _⟩ => rfl
      | ⟨1, _⟩ => rfl

/-- Two rows stacked: row 1 is the second. -/
theorem stack_row1 (v w : FVec Ideal S1x512 .f32) (j : Fin 512) :
    concatenate S2x512 0 [⟨S1x512, v⟩, ⟨S1x512, w⟩] concatenates_S1x512_S1x512_S2x512_d0 (ix2 (1 : Fin 2) j) = w (ix2 (0 : Fin 1) j) :=
  concatenate_pair_apply_right (0 : Fin S2x512.rank) v w concatenates_S1x512_S1x512_S2x512_d0 (ix2 (1 : Fin 2) j) rfl rfl
    (ix2 (0 : Fin 1) j) (fun b hb => by
      match b with
      | ⟨0, _⟩ => exact absurd rfl hb
      | ⟨1, _⟩ => rfl) rfl

/-- What one point adds to the accumulator: the block's column sums over the block's column sums of squares. -/
def statBlk (x0 x1 : FVec Ideal S2000x128 .f32) (x2 : FVec Ideal S128x512 .f32) (x3 : FVec Ideal S1x512 .f32) :
    FVec Ideal S2x512 .f32 :=
  concatenate S2x512 0
    [⟨S1x512, shapeCast S1x512 (multiReduction (F := Ideal) .add [0] S512 (preArr x0 x1 x2 x3) 0x00000000#32
        reduces_S2000x512_S512 (.inl rfl) rfl) shapeCasts_S512_S1x512⟩,
     ⟨S1x512, shapeCast S1x512 (multiReduction (F := Ideal) .add [0] S512 (mulf (preArr x0 x1 x2 x3) (preArr x0 x1 x2 x3)) 0x00000000#32
        reduces_S2000x512_S512 (.inl rfl) rfl) shapeCasts_S512_S1x512⟩]
    concatenates_S1x512_S1x512_S2x512_d0

theorem statBlk_row0 (x0 x1 : FVec Ideal S2000x128 .f32) (x2 : FVec Ideal S128x512 .f32) (x3 : FVec Ideal S1x512 .f32)
    (j : Fin 512) : statBlk x0 x1 x2 x3 (ix2 (0 : Fin 2) j) = ∑ r : Fin 2000, uBlk x0 x1 x2 x3 r j := by
  unfold statBlk
  rw [stack_row0, shapeCast_a_1a_apply, colsum_apply]
  exact Finset.sum_congr rfl fun r _ => preArr_apply x0 x1 x2 x3 r j

theorem statBlk_row1 (x0 x1 : FVec Ideal S2000x128 .f32) (x2 : FVec Ideal S128x512 .f32) (x3 : FVec Ideal S1x512 .f32)
    (j : Fin 512) : statBlk x0 x1 x2 x3 (ix2 (1 : Fin 2) j) = ∑ r : Fin 2000, uBlk x0 x1 x2 x3 r j * uBlk x0 x1 x2 x3 r j := by
  unfold statBlk
  rw [stack_row1, shapeCast_a_1a_apply, colsum_apply]
  refine Finset.sum_congr rfl fun r _ => ?_
  rw [mulf_apply, preArr_apply]

/-- The update's payload is the accumulator plus the point's contribution. -/
theorem pay2_eq (x0 x1 : FVec Ideal S2000x128 .f32) (x2 : FVec Ideal S128x512 .f32) (x3 : FVec Ideal S1x512 .f32)
    (xo : FVec Ideal S2x512 .f32) : k0_pay2 (F := Ideal) x0 x1 x2 x3 xo = addf xo (statBlk x0 x1 x2 x3) := by
  have e : k0_pay2 (F := Ideal) x0 x1 x2 x3 xo
      = addf (shapeCast S2x512 xo shapeCasts_S2x512_S2x512) (statBlk x0 x1 x2 x3) := rfl
  rw [e, shapeCast_self]

/-- The reset's payload is zero everywhere. -/
theorem pay1_apply (y : S2x512.Idx) : k0_pay1 (F := Ideal) y = Cert.Gin.zero32 := rfl

end Payload

variable (V : (c : Dev nD) → (b : Ref sig .tc) → Buf (Elt Ideal) ((c : Thread nD τ).loc b))

/-! ### The operand arrays and their blocks, at their literal types -/

abbrev xarr (c : Dev nD) : FVec Ideal S100000x128 .f32 := V c main_arg0
abbrev aarr (c : Dev nD) : FVec Ideal S100000x128 .f32 := V c main_v12
abbrev warr (c : Dev nD) : FVec Ideal S128x512 .f32 := V c main_arg4
abbrev barr (c : Dev nD) : FVec Ideal S1x512 .f32 := V c main_v13
abbrev xblk (c : Dev nD) (t : Fin cfg0.N) : FVec Ideal S2000x128 .f32 := iblk0 V c 0 t
abbrev ablk (c : Dev nD) (t : Fin cfg0.N) : FVec Ideal S2000x128 .f32 := iblk0 V c 1 t
abbrev wblk (c : Dev nD) (t : Fin cfg0.N) : FVec Ideal S128x512 .f32 := iblk0 V c 2 t
abbrev bblk (c : Dev nD) (t : Fin cfg0.N) : FVec Ideal S1x512 .f32 := iblk0 V c 3 t

/-- Every node's hidden-feature value, from the arrays the launch finds. -/
abbrev Ug (c : Dev nD) : Fin 100000 → Fin 512 → EReal :=
  Cert.Gin.pre1 (xarr V c) (aarr V c) (warr V c) (fun j => barr V c (ix2 0 j))

/-- Node `r` of row block `t`. -/
def node (t : ℕ) (ht : t < 50) (r : Fin 2000) : Fin 100000 := ⟨2000 * t + r.val, by omega⟩

/-- Where each window's block sits at point `t`: the two node arrays move down one block per point, the weights, the
    bias and the accumulator stay. -/
theorem idx_facts : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0))

theorem xblk_apply (c : Dev nD) (t : Fin cfg0.N) (ht : t.val < 50) (r : Fin 2000) (d : Fin 128) :
    xblk V c t (ix2 r d) = xarr V c (ix2 (node t.val ht r) d) := by
  unfold xblk iblk0
  rw [View.read_apply]
  show V c main_arg0 _ = V c main_arg0 _
  congr 1
  funext a
  apply Fin.ext
  match a with
  | ⟨0, _⟩ => show win0_0.index t 0 * 2000 + 1 * r.val = 2000 * t.val + r.val; rw [(idx_facts t).1.1]; omega
  | ⟨1, _⟩ => show win0_0.index t 1 * 128 + 1 * d.val = d.val; rw [(idx_facts t).1.2]; omega

theorem ablk_apply (c : Dev nD) (t : Fin cfg0.N) (ht : t.val < 50) (r : Fin 2000) (d : Fin 128) :
    ablk V c t (ix2 r d) = aarr V c (ix2 (node t.val ht r) d) := by
  unfold ablk iblk0
  rw [View.read_apply]
  show V c main_v12 _ = V c main_v12 _
  congr 1
  funext a
  apply Fin.ext
  match a with
  | ⟨0, _⟩ => show win0_1.index t 0 * 2000 + 1 * r.val = 2000 * t.val + r.val; rw [(idx_facts t).2.1.1]; omega
  | ⟨1, _⟩ => show win0_1.index t 1 * 128 + 1 * d.val = d.val; rw [(idx_facts t).2.1.2]; omega

theorem wblk_apply (c : Dev nD) (t : Fin cfg0.N) (d : Fin 128) (j : Fin 512) :
    wblk V c t (ix2 d j) = warr V c (ix2 d j) := by
  unfold wblk iblk0
  rw [View.read_apply]
  show V c main_arg4 _ = V c main_arg4 _
  congr 1
  funext a
  apply Fin.ext
  match a with
  | ⟨0, _⟩ => show win0_2.index t 0 * 128 + 1 * d.val = d.val; rw [(idx_facts t).2.2.1.1]; omega
  | ⟨1, _⟩ => show win0_2.index t 1 * 512 + 1 * j.val = j.val; rw [(idx_facts t).2.2.1.2]; omega

theorem bblk_apply (c : Dev nD) (t : Fin cfg0.N) (u : Fin 1) (j : Fin 512) :
    bblk V c t (ix2 u j) = barr V c (ix2 u j) := by
  unfold bblk iblk0
  rw [View.read_apply]
  show V c main_v13 _ = V c main_v13 _
  congr 1
  funext a
  apply Fin.ext
  match a with
  | ⟨0, _⟩ => show win0_3.index t 0 * 1 + 1 * u.val = u.val; rw [(idx_facts t).2.2.2.1]; omega
  | ⟨1, _⟩ => show win0_3.index t 1 * 512 + 1 * j.val = j.val; rw [(idx_facts t).2.2.2.2]; omega

/-- A block's value at local node `r` is the whole network's at node `2000 t + r`. -/
theorem uBlk_blocks (c : Dev nD) (t : Fin cfg0.N) (ht : t.val < 50) (r : Fin 2000) (j : Fin 512) :
    uBlk (xblk V c t) (ablk V c t) (wblk V c t) (bblk V c t) r j = Ug V c (node t.val ht r) j := by
  unfold uBlk
  show _ = (∑ d : Fin 128, (Cert.Gin.one32 * xarr V c (ix2 (node t.val ht r) d) + aarr V c (ix2 (node t.val ht r) d))
    * warr V c (ix2 d j)) + barr V c (ix2 0 j)
  rw [bblk_apply V c t 0 j]
  refine congrArg (· + barr V c (ix2 0 j)) (Finset.sum_congr rfl fun d _ => ?_)
  rw [xblk_apply V c t ht r d, ablk_apply V c t ht r d, wblk_apply V c t d j]

/-! ### The sum over the fifty blocks in point order is the sum over all nodes -/

def blockSum (g : Fin 100000 → EReal) (t : ℕ) (ht : t < 50) : EReal := ∑ r : Fin 2000, g (node t ht r)

/-- The accumulator entry after point `n`: zero, then one block's sum added per point. -/
def running (g : Fin 100000 → EReal) : (n : ℕ) → n < 50 → EReal
  | 0, h => Cert.Gin.zero32 + blockSum g 0 h
  | n + 1, h => running g n (Nat.lt_of_succ_lt h) + blockSum g (n + 1) h

theorem running_eq (g : Fin 100000 → EReal) : ∀ (n : ℕ) (h : n < 50),
    running g n h = ∑ t : Fin (n + 1), blockSum g t.val (Nat.lt_of_lt_of_le t.isLt h)
  | 0, h => by
    rw [running, Cert.Gin.zero32_eq, zero_add, Fin.sum_univ_one]
    rfl
  | n + 1, h => by
    rw [running, running_eq g n, Fin.sum_univ_castSucc (n := n + 1)]
    rfl

theorem sum_blocks (g : Fin 100000 → EReal) : ∑ i : Fin 100000, g i = ∑ t : Fin 50, blockSum g t.val t.isLt := by
  refine (Equiv.sum_comp (finProdFinEquiv : Fin 50 × Fin 2000 ≃ Fin (50 * 2000)) g).symm.trans ?_
  rw [Fintype.sum_prod_type]
  refine Finset.sum_congr rfl fun t _ => Finset.sum_congr rfl fun r _ => congrArg g (Fin.ext ?_)
  show r.val + 2000 * t.val = 2000 * t.val + r.val
  omega

theorem running_last (g : Fin 100000 → EReal) (h : 49 < 50) : running g 49 h = ∑ i : Fin 100000, g i := by
  rw [running_eq, sum_blocks]

/-! ### The accumulator after each point -/

/-- The accumulator block after point `n`, as the two payloads leave it. -/
def acc (c : Dev nD) : (n : ℕ) → n < cfg0.N → FVec Ideal S2x512 .f32
  | 0, h => k0_pay2 (F := Ideal) (xblk V c ⟨0, h⟩) (ablk V c ⟨0, h⟩) (wblk V c ⟨0, h⟩) (bblk V c ⟨0, h⟩) (k0_pay1 (F := Ideal))
  | n + 1, h => k0_pay2 (F := Ideal) (xblk V c ⟨n + 1, h⟩) (ablk V c ⟨n + 1, h⟩) (wblk V c ⟨n + 1, h⟩) (bblk V c ⟨n + 1, h⟩)
      (acc c n (Nat.lt_of_succ_lt h))

theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 50 := N_0
    have hB : ¬(⟨n + 1, h⟩ : Fin cfg0.N).val % 50 = 0 := by dsimp only; omega
    rw [outsAt0_B V c ⟨n + 1, h⟩ hB, out_B]
    show k0_pay2 _ _ _ _ (outsAt0 V c n _) = k0_pay2 _ _ _ _ (acc V c n _)
    rw [outsAt_eq c n]

theorem acc_row0 (c : Dev nD) (j : Fin 512) : ∀ (n : ℕ) (h : n < cfg0.N) (h' : n < 50),
    acc V c n h (ix2 (0 : Fin 2) j) = running (fun i => Ug V c i j) n h'
  | 0, h, h' => by
    rw [acc, pay2_eq, addf_apply, pay1_apply, statBlk_row0, running]
    exact congrArg (Cert.Gin.zero32 + ·) (Finset.sum_congr rfl fun r _ => uBlk_blocks V c ⟨0, h⟩ h' r j)
  | n + 1, h, h' => by
    rw [acc, pay2_eq, addf_apply, statBlk_row0, running, acc_row0 c j n (Nat.lt_of_succ_lt h) (Nat.lt_of_succ_lt h')]
    exact congrArg (running (fun i => Ug V c i j) n (Nat.lt_of_succ_lt h') + ·)
      (Finset.sum_congr rfl fun r _ => uBlk_blocks V c ⟨n + 1, h⟩ h' r j)

theorem acc_row1 (c : Dev nD) (j : Fin 512) : ∀ (n : ℕ) (h : n < cfg0.N) (h' : n < 50),
    acc V c n h (ix2 (1 : Fin 2) j) = running (fun i => Ug V c i j * Ug V c i j) n h'
  | 0, h, h' => by
    rw [acc, pay2_eq, addf_apply, pay1_apply, statBlk_row1, running]
    refine congrArg (Cert.Gin.zero32 + ·) (Finset.sum_congr rfl fun r _ => ?_)
    rw [uBlk_blocks V c ⟨0, h⟩ h' r j]
  | n + 1, h, h' => by
    rw [acc, pay2_eq, addf_apply, statBlk_row1, running, acc_row1 c j n (Nat.lt_of_succ_lt h) (Nat.lt_of_succ_lt h')]
    refine congrArg (running (fun i => Ug V c i j * Ug V c i j) n (Nat.lt_of_succ_lt h') + ·)
      (Finset.sum_congr rfl fun r _ => ?_)
    rw [uBlk_blocks V c ⟨n + 1, h⟩ h' r j]

/-- After the last point the accumulator holds both column sums over all the nodes. -/
theorem acc_last (c : Dev nD) (h : 49 < cfg0.N) : acc V c 49 h = Cert.Gin.statsArr (Ug V c) := by
  funext y
  obtain ⟨p, j, rfl⟩ : ∃ (p : Fin 2) (j : Fin 512), y = ix2 p j := ⟨y 0, y 1, eq_ix2 y⟩
  match p with
  | ⟨0, _⟩ =>
    refine (acc_row0 V c j 49 h (by decide)).trans ?_
    rw [running_last]
    exact (if_pos rfl).symm
  | ⟨1, _⟩ =>
    refine (acc_row1 V c j 49 h (by decide)).trans ?_
    rw [running_last]
    exact (if_neg Nat.one_ne_zero).symm

/-! ### The one write-back -/

theorem last_lt : 49 < cfg0.N := by rw [show cfg0.N = 50 from N_0]; decide

/-- The last point of the grid. -/
abbrev tLast : Fin cfg0.N := ⟨49, last_lt⟩

theorem flushed_eq (c : Dev nD) (t : Fin cfg0.N) (hf : (cfg0.win 4).flush t = true) :
    (dat0 (F := Ideal) V c).flushed 4 t = ((cfg0.win 4).blk t).view.read (Elt Ideal) (Cert.Gin.statsArr (Ug V c)) := by
  have hN : cfg0.N = 50 := N_0
  have h49 : t.val = 49 := by have := (flush0_4 t).mp hf; have := t.isLt; omega
  obtain rfl : t = tLast := Fin.ext h49
  show (cfg0.win 4).cut (grid0.coords tLast) ((dat0 (F := Ideal) V c).after 4 tLast) = _
  rw [after0_4, outsAt_eq, acc_last]
  have hz' : (fun a => win0_4.index tLast a * main_v15.ty.shape.size a) = fun _ => 0 :=
    funext fun a => by fin_cases a <;> decide +kernel
  exact (Memref.read_access_unit_zero (Elt Ideal) main_v15 hz' (fun a => by rw [congrFun hz' a]; simp)
    (Cert.Gin.statsArr (Ug V c))).symm

/-- The accumulator block is written back once, after the last row block: it then holds both column sums over all
    100000 nodes, whatever the four operand arrays hold when the launch is entered. -/
theorem final (c : Dev nD) :
    (dat0 (F := Ideal) V c).arrAt 4 cfg0.N
      = Cert.Gin.statsArr (Cert.Gin.pre1 (V c main_arg0) (V c main_v12) (V c main_arg4)
          (fun j => (V c main_v13 : S1x512.Idx → EReal) (ix2 0 j))) := by
  exact
  (dat0 (F := Ideal) V c).arrAt_eq_of_cover 4 (Cert.Gin.statsArr (Ug V c)) (flushed_eq V c) fun i =>
    ⟨tLast, (flush0_4 tLast).mpr rfl, by
      show i ∈ ((View.whole main_v15).slice (win0_4.rect tLast)).set
      rw [View.set_slice_whole, Rect.mem_set_unit]
      intro a
      have h0 : (i 0 : Nat) < 2 := (i 0).isLt
      have h1 : (i 1 : Nat) < 512 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 2 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 512 from by decide +kernel]
        omega⟩

end Cert.KernelIdeal.Reg0

end
-- ==== Proof.Reg1Value.lean ====
/-
  The second launch's result array, as one whole-array function of the arrays the launch finds.

  The launch walks fifty grid points. At point `t` it holds rows `2000·t … 2000·t + 1999` of the node features `x` and of
  the neighbour sum `a`, and all of `w1`, `b1`, the scale row, the shift row, `w2` and `b2`. From these it forms, for a row
  `r` of the block and an output feature `q`,

      (∑ j < 512, max(u(r, j)·scale(j) + shift(j), 0) · w2(j, q)) + b2(q),
      u(r, j) = (∑ d < 128, (1·x(r, d) + a(r, d)) · w1(d, j)) + b1(j),

  and writes that 2000 × 256 block to the same rows of the result. At the ideal values the narrowing of the products'
  operands is the identity and each product into a zero accumulator is the plain sum over the contracted axis, so the
  block is exactly this formula (`body_apply`). Row `r` of block `t` is row `2000·t + r` of every row-blocked array and the
  other operands are staged whole (`block_positions` and the eight block lemmas), so what point `t` writes is block `t`
  of `Cert.Gin.mlpOut` of the eight arrays (`written_block`). Row `i` lies in block `i / 2000`, so the fifty blocks cover
  the array (`rows_covered`), and the array ends as `mlpOut` (`final`).
-/
import proofs.«109966_j65283502899905_1_alg».proof.Proof.Gen.KernelIdeal.Frame
import proofs.«109966_j65283502899905_1_alg».proof.Proof.Spec
import proofs.«109966_j65283502899905_1_alg».proof.Proof.LibDot
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

/-! ## One block's arithmetic, entry by entry -/

/-- A row of 512 features spread over 2000 rows, read at `(r, j)`, is its entry `j`. -/
theorem spread512_apply (v : FVec Ideal S1x512 .f32) (r : Fin 2000) (j : Fin 512) :
    broadcastTo S2000x512 v broadcasts_S1x512_S2000x512 (ix2 r j) = v (ix2 0 j) :=
  broadcastTo_apply v broadcasts_S1x512_S2000x512 (ix2 r j) (ix2 0 j) (fun a => by
    match a with
    | ⟨0, _⟩ => rfl
    | ⟨1, _⟩ => rfl)

/-- A row of 256 features spread over 2000 rows, read at `(r, q)`, is its entry `q`. -/
theorem spread256_apply (v : FVec Ideal S1x256 .f32) (r : Fin 2000) (q : Fin 256) :
    broadcastTo S2000x256 v broadcasts_S1x256_S2000x256 (ix2 r q) = v (ix2 0 q) :=
  broadcastTo_apply v broadcasts_S1x256_S2000x256 (ix2 r q) (ix2 0 q) (fun a => by
    match a with
    | ⟨0, _⟩ => rfl
    | ⟨1, _⟩ => rfl)

/-- The first product, 2000 × 128 by 128 × 512 into zero, at `(r, j)`: the sum over the 128 input features. Its
    dimension record is the plain rows-by-columns one. -/
theorem hidden_product_apply (a : FVec Ideal S2000x128 .bf16) (b : FVec Ideal S128x512 .bf16) (r : Fin 2000) (j : Fin 512) :
    matmul dot_S2000x128_S128x512_S2000x512_1_0_0_1_n_n none a b (constant (F := Ideal) S2000x512 .f32 0x00000000#32) (ix2 r j)
      = ∑ d : Fin 128, a (ix2 r d) * b (ix2 d j) :=
  Cert.GNN.matmul_plain_zero_apply (M := 2000) (K := 128) (N := 512) none a b r j

/-- The second product, 2000 × 512 by 512 × 256 into zero, at `(r, q)`: the sum over the 512 hidden features. -/
theorem out_product_apply (a : FVec Ideal S2000x512 .bf16) (b : FVec Ideal S512x256 .bf16) (r : Fin 2000) (q : Fin 256) :
    matmul dot_S2000x512_S512x256_S2000x256_1_0_0_1_n_n none a b (constant (F := Ideal) S2000x256 .f32 0x00000000#32) (ix2 r q)
      = ∑ j : Fin 512, a (ix2 r j) * b (ix2 j q) :=
  Cert.GNN.matmul_plain_zero_apply (M := 2000) (K := 512) (N := 256) none a b r q

/-- What one grid point computes from its eight blocks, at row `r` and output feature `q`: the hidden row `1·x + a`
    through the first linear map, the multiply-add normalisation, the rectifier, the second linear map. The casts to
    the same shape and the narrowing of the products' operands change nothing at the ideal values. -/
theorem body_apply (x0 x1 : Vec Ideal S2000x128 .f32) (x2 : Vec Ideal S128x512 .f32) (x3 x4 x5 : Vec Ideal S1x512 .f32)
    (x6 : Vec Ideal S512x256 .f32) (x7 : Vec Ideal S1x256 .f32) (r : Fin 2000) (q : Fin 256) :
    k1_pay1 (F := Ideal) x0 x1 x2 x3 x4 x5 x6 x7 (ix2 r q)
      = (∑ j : Fin 512, max (((∑ d : Fin 128, (Cert.Gin.one32 * x0 (ix2 r d) + x1 (ix2 r d)) * x2 (ix2 d j)) + x3 (ix2 0 j))
            * x4 (ix2 0 j) + x5 (ix2 0 j)) Cert.Gin.zero32 * x6 (ix2 j q)) + x7 (ix2 0 q) := by
  unfold k1_pay1
  -- the outer sum plus the second bias
  refine (congrArg₂ (· + ·) (out_product_apply _ _ r q)
    ((spread256_apply _ r q).trans (congrFun (shapeCast_self x7 _) (ix2 0 q)))).trans ?_
  refine congrArg (· + x7 (ix2 0 q)) (Finset.sum_congr rfl fun j _ => ?_)
  refine congrArg (· * x6 (ix2 j q)) ?_
  -- the rectified multiply-add of the hidden feature `j`
  refine congrArg (max · Cert.Gin.zero32) ?_
  refine congrArg₂ (· + ·) (congrArg₂ (· * ·) ?_ ((spread512_apply _ r j).trans (congrFun (shapeCast_self x4 _) (ix2 0 j))))
    ((spread512_apply _ r j).trans (congrFun (shapeCast_self x5 _) (ix2 0 j)))
  -- the inner sum plus the first bias
  refine congrArg₂ (· + ·) ((hidden_product_apply _ _ r j).trans ?_)
    ((spread512_apply _ r j).trans (congrFun (shapeCast_self x3 _) (ix2 0 j)))
  refine Finset.sum_congr rfl fun d _ => ?_
  exact congrArg (fun z => (Cert.Gin.one32 * x0 (ix2 r d) + z) * x2 (ix2 d j)) (congrFun (shapeCast_self x1 _) (ix2 r d))

/-! ## Where each block sits in its array -/

variable (V : (c : Dev nD) → (b : Ref sig .tc) → Buf (Elt Ideal) ((c : Thread nD τ).loc b))

/-- The offset `(0, 0)`. -/
theorem origin : (![0, 0] : Fin 2 → ℕ) = fun _ => 0 := funext fun a => by fin_cases a <;> rfl

/-- At point `t` the node features, the neighbour sum and the result are at block `(t, 0)`; the two weight arrays and
    the four rows are at block `(0, 0)`. Fifty points, each checked. -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `r` of the node-feature block at point `t` is row `2000·t + r` of the node features. -/
theorem x_block (c : Dev nD) (t : Fin cfg1.N) (r : Fin 2000) (d : Fin 128) (p : Fin 100000) (hp : p.val = 2000 * t.val + r.val) :
    (iblk1 V c 0 t : Vec Ideal S2000x128 .f32) (ix2 r d) = (V c main_arg0 : S100000x128.Idx → EReal) (ix2 p d) := by
  obtain ⟨e0, e1, -⟩ := block_positions t
  show V c main_arg0 (((cfg1.win 0).blk t).view.emb (ix2 r d)) = _
  refine congrArg _ (funext fun a => Fin.ext ?_)
  match a with
  | ⟨0, _⟩ => show win1_0.index t (0 : Fin 2) * 2000 + 1 * r.val = p.val; omega
  | ⟨1, _⟩ => show win1_0.index t (1 : Fin 2) * 128 + 1 * d.val = d.val; omega

/-- Row `r` of the neighbour-sum block at point `t` is row `2000·t + r` of the neighbour sum. -/
theorem nbr_block (c : Dev nD) (t : Fin cfg1.N) (r : Fin 2000) (d : Fin 128) (p : Fin 100000) (hp : p.val = 2000 * t.val + r.val) :
    (iblk1 V c 1 t : Vec Ideal S2000x128 .f32) (ix2 r d) = (V c main_v12 : S100000x128.Idx → EReal) (ix2 p d) := by
  obtain ⟨-, -, e0, e1, -⟩ := block_positions t
  show V c main_v12 (((cfg1.win 1).blk t).view.emb (ix2 r d)) = _
  refine congrArg _ (funext fun a => Fin.ext ?_)
  match a with
  | ⟨0, _⟩ => show win1_1.index t (0 : Fin 2) * 2000 + 1 * r.val = p.val; omega
  | ⟨1, _⟩ => show win1_1.index t (1 : Fin 2) * 128 + 1 * d.val = d.val; omega

/-- The first weight array is staged whole at every point. -/
theorem w1_block (c : Dev nD) (t : Fin cfg1.N) (d : Fin 128) (j : Fin 512) :
    (iblk1 V c 2 t : Vec Ideal S128x512 .f32) (ix2 d j) = (V c main_arg4 : S128x512.Idx → EReal) (ix2 d j) := by
  obtain ⟨-, -, -, -, e0, e1, -⟩ := block_positions t
  show V c main_arg4 (((cfg1.win 2).blk t).view.emb (ix2 d j)) = _
  refine congrArg _ (funext fun a => Fin.ext ?_)
  match a with
  | ⟨0, _⟩ => show win1_2.index t (0 : Fin 2) * 128 + 1 * d.val = d.val; omega
  | ⟨1, _⟩ => show win1_2.index t (1 : Fin 2) * 512 + 1 * j.val = j.val; omega

/-- So is the first bias row, -/
theorem b1_block (c : Dev nD) (t : Fin cfg1.N) (j : Fin 512) :
    (iblk1 V c 3 t : Vec Ideal S1x512 .f32) (ix2 0 j) = (V c main_v13 : S1x512.Idx → EReal) (ix2 0 j) := by
  obtain ⟨-, -, -, -, -, -, e0, e1, -⟩ := block_positions t
  show V c main_v13 (((cfg1.win 3).blk t).view.emb (ix2 0 j)) = _
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * j.val = j.val; omega

/-- the scale row, -/
theorem scale_block (c : Dev nD) (t : Fin cfg1.N) (j : Fin 512) :
    (iblk1 V c 4 t : Vec Ideal S1x512 .f32) (ix2 0 j) = (V c main_v30 : S1x512.Idx → EReal) (ix2 0 j) := by
  obtain ⟨-, -, -, -, -, -, -, -, e0, e1, -⟩ := block_positions t
  show V c main_v30 (((cfg1.win 4).blk t).view.emb (ix2 0 j)) = _
  refine congrArg _ (funext fun a => Fin.ext ?_)
  match a with
  | ⟨0, _⟩ => show win1_4.index t (0 : Fin 2) * 1 + 1 * 0 = 0; omega
  | ⟨1, _⟩ => show win1_4.index t (1 : Fin 2) * 512 + 1 * j.val = j.val; omega

/-- the shift row, -/
theorem shift_block (c : Dev nD) (t : Fin cfg1.N) (j : Fin 512) :
    (iblk1 V c 5 t : Vec Ideal S1x512 .f32) (ix2 0 j) = (V c main_v34 : S1x512.Idx → EReal) (ix2 0 j) := by
  obtain ⟨-, -, -, -, -, -, -, -, -, -, e0, e1, -⟩ := block_positions t
  show V c main_v34 (((cfg1.win 5).blk t).view.emb (ix2 0 j)) = _
  refine congrArg _ (funext fun a => Fin.ext ?_)
  match a with
  | ⟨0, _⟩ => show win1_5.index t (0 : Fin 2) * 1 + 1 * 0 = 0; omega
  | ⟨1, _⟩ => show win1_5.index t (1 : Fin 2) * 512 + 1 * j.val = j.val; omega

/-- the second weight array, -/
theorem w2_block (c : Dev nD) (t : Fin cfg1.N) (j : Fin 512) (q : Fin 256) :
    (iblk1 V c 6 t : Vec Ideal S512x256 .f32) (ix2 j q) = (V c main_arg8 : S512x256.Idx → EReal) (ix2 j q) := by
  obtain ⟨-, -, -, -, -, -, -, -, -, -, -, -, e0, e1, -⟩ := block_positions t
  show V c main_arg8 (((cfg1.win 6).blk t).view.emb (ix2 j q)) = _
  refine congrArg _ (funext fun a => Fin.ext ?_)
  match a with
  | ⟨0, _⟩ => show win1_6.index t (0 : Fin 2) * 512 + 1 * j.val = j.val; omega
  | ⟨1, _⟩ => show win1_6.index t (1 : Fin 2) * 256 + 1 * q.val = q.val; omega

/-- and the second bias row. -/
theorem b2_block (c : Dev nD) (t : Fin cfg1.N) (q : Fin 256) :
    (iblk1 V c 7 t : Vec Ideal S1x256 .f32) (ix2 0 q) = (V c main_v14 : S1x256.Idx → EReal) (ix2 0 q) := by
  obtain ⟨-, -, -, -, -, -, -, -, -, -, -, -, -, -, e0, e1, -⟩ := block_positions t
  show V c main_v14 (((cfg1.win 7).blk t).view.emb (ix2 0 q)) = _
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * q.val = q.val; omega

/-! ## What each point writes, and the whole array -/

/-- Point `t` writes back rows `2000·t … 2000·t + 1999` of `mlpOut` of the eight arrays: entry `(r, q)` of its block is the
    block arithmetic of `body_apply`, whose operands are the arrays' entries at row `2000·t + r`, and that is `mlpOut` at
    `(2000·t + r, q)` term by term. -/
theorem written_block (c : Dev nD) (t : Fin cfg1.N) :
    (dat1 (F := Ideal) V c).flushed 8 t = ((cfg1.win 8).blk t).view.read (Elt Ideal)
      (Cert.Gin.mlpOut (V c main_arg0) (V c main_v12) (V c main_arg4)
          (fun j => (V c main_v13 : S1x512.Idx → EReal) (ix2 0 j))
          (fun j => (V c main_v30 : S1x512.Idx → EReal) (ix2 0 j))
          (fun j => (V c main_v34 : S1x512.Idx → EReal) (ix2 0 j))
          (V c main_arg8)
          (fun q => (V c main_v14 : S1x256.Idx → EReal) (ix2 0 q))) := by
  show (cfg1.win 8).cut (grid1.coords t) ((dat1 V c).after 8 t) = _
  rw [after1_8]
  unfold out1_8
  rw [View.canon_unit_zero origin]
  simp only [View.ld_unit_zero (S := S2000x128) origin, View.ld_unit_zero (S := S128x512) origin,
    View.ld_unit_zero (S := S1x512) origin, View.ld_unit_zero (S := S512x256) origin, View.ld_unit_zero (S := S1x256) origin]
  funext y
  obtain ⟨r, q, rfl⟩ : ∃ (r : Fin 2000) (q : Fin 256), y = ix2 r q := ⟨y 0, y 1, eq_ix2 y⟩
  have ht : t.val < 50 := lt_of_lt_of_eq t.isLt N_1
  have hr : r.val < 2000 := r.isLt
  obtain ⟨-, -, -, -, -, -, -, -, -, -, -, -, -, -, -, -, e0, e1⟩ := block_positions t
  -- entry `(r, q)` of the result's block `t` is entry `(2000·t + r, q)` of the result
  have he : ((cfg1.win 8).blk t).view.emb (ix2 r q) = (ix2 (⟨2000 * t.val + r.val, by omega⟩ : Fin 100000) q : S100000x256.Idx) := by
    funext a; apply Fin.ext
    match a with
    | ⟨0, _⟩ => show win1_8.index t (0 : Fin 2) * 2000 + 1 * r.val = 2000 * t.val + r.val; omega
    | ⟨1, _⟩ => show win1_8.index t (1 : Fin 2) * 256 + 1 * q.val = q.val; omega
  show k1_pay1 (F := Ideal) (iblk1 V c 0 t) (iblk1 V c 1 t) (iblk1 V c 2 t) (iblk1 V c 3 t) (iblk1 V c 4 t) (iblk1 V c 5 t)
        (iblk1 V c 6 t) (iblk1 V c 7 t) (ix2 r q)
      = (Cert.Gin.mlpOut (V c main_arg0) (V c main_v12) (V c main_arg4)
          (fun j => (V c main_v13 : S1x512.Idx → EReal) (ix2 0 j))
          (fun j => (V c main_v30 : S1x512.Idx → EReal) (ix2 0 j))
          (fun j => (V c main_v34 : S1x512.Idx → EReal) (ix2 0 j))
          (V c main_arg8)
          (fun q => (V c main_v14 : S1x256.Idx → EReal) (ix2 0 q))) (((cfg1.win 8).blk t).view.emb (ix2 r q))
  rw [he]
  refine (body_apply (iblk1 V c 0 t) (iblk1 V c 1 t) (iblk1 V c 2 t) (iblk1 V c 3 t) (iblk1 V c 4 t) (iblk1 V c 5 t)
        (iblk1 V c 6 t) (iblk1 V c 7 t) r q).trans ?_
  refine Eq.trans ?_ (Cert.Gin.lin2_apply _ _ _ (⟨2000 * t.val + r.val, by omega⟩ : Fin 100000) q).symm
  refine congrArg₂ (· + ·) (Finset.sum_congr rfl fun j _ => congrArg₂ (· * ·) ?_ (w2_block V c t j q)) (b2_block V c t q)
  refine congrArg (max · Cert.Gin.zero32) ?_
  refine congrArg₂ (· + ·) (congrArg₂ (· * ·) ?_ (scale_block V c t j)) (shift_block V c t j)
  refine congrArg₂ (· + ·) (Finset.sum_congr rfl fun d _ => ?_) (b1_block V c t j)
  exact congrArg₂ (· * ·) (congrArg₂ (· + ·) (congrArg (Cert.Gin.one32 * ·) (x_block V c t r d _ rfl)) (nbr_block V c t r d _ rfl))
    (w1_block V c t d j)

/-- An entry of the result is in point `t`'s block iff each coordinate is in the block's range on its axis. -/
theorem mem_row_block (t : Fin cfg1.N) (i : S100000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v35).slice (win1_8.rect t)).set ↔ _
  rw [View.set_slice_whole, Rect.mem_set_unit]
  exact Iff.rfl

/-- Every entry of the result is written: row `i` is in the block of point `i / 2000`, which is below 50 because
    `i < 100000`, and every column is in every block. -/
theorem rows_covered (i : S100000x256.Idx) :
    ∃ t : Fin cfg1.N, (cfg1.win 8).flush t = true ∧ i ∈ ((cfg1.win 8).blk t).view.set := by
  have hi0 : (i 0).val < 100000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  obtain ⟨-, -, -, -, -, -, -, -, -, -, -, -, -, -, -, -, e0, e1⟩ := block_positions t
  refine ⟨t, flush1_8 t, ?_⟩
  rw [mem_row_block]
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 256 ≤ (i 1).val ∧ (i 1).val < win1_8.index t (1 : Fin 2) * 256 + 256
    omega

/-- After the fifty row blocks are written back, the result array holds the normalise-rectify-project of every node's
    row, whatever the eight operand arrays hold when the launch is entered. -/
theorem final (c : Dev nD) :
    (dat1 (F := Ideal) V c).arrAt 8 cfg1.N
      = Cert.Gin.mlpOut (V c main_arg0) (V c main_v12) (V c main_arg4)
          (fun j => (V c main_v13 : S1x512.Idx → EReal) (ix2 0 j))
          (fun j => (V c main_v30 : S1x512.Idx → EReal) (ix2 0 j))
          (fun j => (V c main_v34 : S1x512.Idx → EReal) (ix2 0 j))
          (V c main_arg8)
          (fun q => (V c main_v14 : S1x256.Idx → EReal) (ix2 0 q)) :=
  (dat1 (F := Ideal) V c).arrAt_eq_of_cover 8 _ (fun t _ => written_block V c t) rows_covered

end Cert.KernelIdeal.Reg1

end
-- ==== Proof.Agg.lean ====
/-
  The weighted neighbour sum, the one host chain both programs share.

  A negative source index wraps by the node count, the source rows are gathered, each scaled by its edge weight, and the
  scaled rows are added into a zero array at the destination indices. Both programs spell exactly these operations; the
  two definitions below differ only in which program's dimension records they cite, and those records agree.
-/
import proofs.«109966_j65283502899905_1_alg».proof.Proof.Gen.KernelIdeal
import proofs.«109966_j65283502899905_1_alg».proof.Proof.Gen.ReferenceIdeal
import proofs.«109966_j65283502899905_1_alg».proof.Proof.Spec

noncomputable section

open Idealize.ShloMosaic Idealize.SL.Sem

namespace Cert.Gin

/-- The neighbour sum over the blocked program's records. -/
def aggK (x : FVec Ideal Cert.KernelIdeal.S100000x128 .f32) (src dst : IVec Cert.KernelIdeal.S1600000 32)
    (ew : FVec Ideal Cert.KernelIdeal.S1600000 .f32) : FVec Ideal Cert.KernelIdeal.S100000x128 .f32 :=
  open Cert.KernelIdeal Cert.KernelIdeal.Facts₀ in
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The neighbour sum over the plain program's records. -/
def aggR (x : FVec Ideal Cert.ReferenceIdeal.S100000x128 .f32) (src dst : IVec Cert.ReferenceIdeal.S1600000 32)
    (ew : FVec Ideal Cert.ReferenceIdeal.S1600000 .f32) : FVec Ideal Cert.ReferenceIdeal.S100000x128 .f32 :=
  open Cert.ReferenceIdeal Cert.ReferenceIdeal.Facts₀ in
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The two spellings are one function. -/
theorem aggK_eq_aggR (x : FVec Ideal Cert.KernelIdeal.S100000x128 .f32) (src dst : IVec Cert.KernelIdeal.S1600000 32)
    (ew : FVec Ideal Cert.KernelIdeal.S1600000 .f32) : aggK x src dst ew = aggR x src dst ew := rfl

end Cert.Gin

end
-- ==== Proof.KHost.lean ====
/-
  The two host stretches of the blocked program, read as mathematics.

  First stretch: it writes the weighted neighbour sum of the node features and the two bias vectors viewed as one-row
  arrays; it writes no argument. Second stretch: from a two-row array `S` (row 0 the per-feature sums, row 1 the
  per-feature sums of squares) and the vectors γ, β it forms, per feature `j`,
  `mean = S[0,j] / n`, `inv = rsqrt(S[1,j] / n − mean² + ε)`, the scale row `γ[j] · inv` and the shift row
  `β[j] − (mean · γ[j]) · inv`, each as a one-row array; it writes none of the arrays the second launch reads besides
  those two rows. A launch leaves each array it only reads as it found it, and leaves alone every buffer that is no
  array of it. Hence each operand array of either launch is a named function of the launch memory, the scale and shift
  rows being functions of whatever the first launch left in its result array.
-/
import proofs.«109966_j65283502899905_1_alg».proof.Proof.Gen.KernelIdeal.Frame
import proofs.«109966_j65283502899905_1_alg».proof.Proof.Spec
import proofs.«109966_j65283502899905_1_alg».proof.Proof.Agg
import Idealize.ShloMosaic.Lib.StableHlo.Run
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-! ## The second host stretch as functions of the two-row sums array and the two parameter vectors -/

/-- Row 0 of a two-row array as a vector: the slice of its first row with the unit axis dropped. -/
def rowH0 (S : FVec Ideal S2x512 .f32) : FVec Ideal S512 .f32 :=
  shapeCast S512 (extractStridedSlice S1x512 ![0, 0] S slices_S2x512_S1x512_0_0) shapeCasts_S1x512_S512
/-- Row 1 likewise. -/
def rowH1 (S : FVec Ideal S2x512 .f32) : FVec Ideal S512 .f32 :=
  shapeCast S512 (extractStridedSlice S1x512 ![1, 0] S slices_S2x512_S1x512_1_0) shapeCasts_S1x512_S512
/-- The node count in every lane. -/
def cntH : FVec Ideal S512 .f32 := broadcastInDim S512 ![] bcast_S_S512 (constant (F := Ideal) S_ .f32 0x47C35000#32)
/-- The guard ε in every lane. -/
def epsH : FVec Ideal S512 .f32 := broadcastInDim S512 ![] bcast_S_S512 (constant (F := Ideal) S_ .f32 0x3727C5AC#32)
/-- The per-feature mean. -/
def meanH (S : FVec Ideal S2x512 .f32) : FVec Ideal S512 .f32 := Host.divf (F := Ideal) (rowH0 S) cntH
/-- The per-feature reciprocal standard deviation. -/
def invH (S : FVec Ideal S2x512 .f32) : FVec Ideal S512 .f32 :=
  Host.rsqrt (F := Ideal) (addf (subf (Host.divf (F := Ideal) (rowH1 S) cntH) (mulf (meanH S) (meanH S))) epsH)
/-- The scale row. -/
def scaleH (S : FVec Ideal S2x512 .f32) (γ : FVec Ideal S512 .f32) : FVec Ideal S1x512 .f32 :=
  shapeCast S1x512 (mulf γ (invH S)) shapeCasts_S512_S1x512
/-- The shift row. -/
def shiftH (S : FVec Ideal S2x512 .f32) (γ β : FVec Ideal S512 .f32) : FVec Ideal S1x512 .f32 :=
  shapeCast S1x512 (subf β (mulf (mulf (meanH S) γ) (invH S))) shapeCasts_S512_S1x512

theorem rowH0_apply (S : FVec Ideal S2x512 .f32) (j : Fin 512) : rowH0 S (ix1 j) = S (ix2 0 j) := by
  unfold rowH0
  refine (shapeCast_1a_a_apply _ _ j).trans ?_
  exact extractStridedSlice_apply _ S _ _ _ (fun a => by match a with | ⟨0, _⟩ => rfl | ⟨1, _⟩ => exact (Nat.zero_add _).symm)

theorem rowH1_apply (S : FVec Ideal S2x512 .f32) (j : Fin 512) : rowH1 S (ix1 j) = S (ix2 1 j) := by
  unfold rowH1
  refine (shapeCast_1a_a_apply _ _ j).trans ?_
  exact extractStridedSlice_apply _ S _ _ _ (fun a => by match a with | ⟨0, _⟩ => rfl | ⟨1, _⟩ => exact (Nat.zero_add _).symm)

theorem cntH_apply (j : Fin 512) : cntH (ix1 j) = Cert.Gin.cnt32 := rfl
theorem epsH_apply (j : Fin 512) : epsH (ix1 j) = Cert.Gin.eps32 := rfl

theorem meanH_apply (S : FVec Ideal S2x512 .f32) (j : Fin 512) : meanH S (ix1 j) = Cert.Gin.meanK S j := by
  show Ideal.div (rowH0 S (ix1 j)) (cntH (ix1 j)) = _
  rw [rowH0_apply, cntH_apply]; rfl

theorem invH_apply (S : FVec Ideal S2x512 .f32) (j : Fin 512) : invH S (ix1 j) = Cert.Gin.invK S j := by
  show Ideal.rsqrt ((Ideal.div (rowH1 S (ix1 j)) (cntH (ix1 j)) - meanH S (ix1 j) * meanH S (ix1 j)) + epsH (ix1 j)) = _
  rw [rowH1_apply, cntH_apply, epsH_apply, meanH_apply]; rfl

/-- The scale row read at a feature. -/
theorem scaleH_apply (S : FVec Ideal S2x512 .f32) (γ : FVec Ideal S512 .f32) (j : Fin 512) :
    scaleH S γ (ix2 0 j) = Cert.Gin.scaleK S (fun j => γ (ix1 j)) j := by
  unfold scaleH
  refine (shapeCast_a_1a_apply _ _ 0 j).trans ?_
  show γ (ix1 j) * invH S (ix1 j) = _
  rw [invH_apply]; rfl

/-- The shift row read at a feature. -/
theorem shiftH_apply (S : FVec Ideal S2x512 .f32) (γ β : FVec Ideal S512 .f32) (j : Fin 512) :
    shiftH S γ β (ix2 0 j) = Cert.Gin.shiftK S (fun j => γ (ix1 j)) (fun j => β (ix1 j)) j := by
  unfold shiftH
  refine (shapeCast_a_1a_apply _ _ 0 j).trans ?_
  show β (ix1 j) - (meanH S (ix1 j) * γ (ix1 j)) * invH S (ix1 j) = _
  rw [invH_apply, meanH_apply]; rfl

/-! ## What the first host stretch writes -/

theorem W1_v12 (c : Dev nD) :
    (W1 (F := Ideal) m ρ c (Proc.devRef .tc main_v12) : FVec Ideal S100000x128 .f32)
      = Cert.Gin.aggK (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v12) = _
  after_results
  rfl

theorem W1_v13 (c : Dev nD) :
    (W1 (F := Ideal) m ρ c (Proc.devRef .tc main_v13) : FVec Ideal S1x512 .f32)
      = shapeCast S1x512 (m ((c.tc : Thread nD τ).loc main_arg5) : FVec Ideal S512 .f32) shapeCasts_S512_S1x512 := by
  show StableHlo.after hostOps0 (W0 m ρ c) (Proc.devRef .tc main_v13) = _
  after_results
  rfl

theorem W1_v14 (c : Dev nD) :
    (W1 (F := Ideal) m ρ c (Proc.devRef .tc main_v14) : FVec Ideal S1x256 .f32)
      = shapeCast S1x256 (m ((c.tc : Thread nD τ).loc main_arg9) : FVec Ideal S256 .f32) shapeCasts_S256_S1x256 := by
  show StableHlo.after hostOps0 (W0 m ρ c) (Proc.devRef .tc main_v14) = _
  after_results
  rfl

/-- The buffers the first host stretch writes. -/
abbrev wr0 : List (Ref sig .tc) :=
  [main_c, main_v0, main_v1, main_c_0, main_v2, main_v3, main_v4, main_v5, main_v6, main_v7, main_v8, main_v9, main_cst,
    main_v10, main_v11, main_v12, main_v13, main_v14]

theorem hostOps0_writes :
    (hostOps0 (F := Ideal) : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer the first host stretch does not write holds what the launch memory holds. -/
theorem W1_keep (c : Dev nD) (r : Ref sig .tc) (hr : r ∉ wr0) :
    W1 (F := Ideal) m ρ c (Proc.devRef .tc r) = m ((c.tc : Thread nD τ).loc r) :=
  StableHlo.after_of_writes_sub hostOps0 (W0 m ρ c) hostOps0_writes hr

/-- The buffers the second host stretch writes. -/
abbrev wr1 : List (Ref sig .tc) :=
  [main_v16, main_v17, main_cst_1, main_v18, main_v19, main_v20, main_v21, main_cst_2, main_v22, main_v23, main_v24, main_v25,
    main_cst_3, main_v26, main_v27, main_v28, main_v29, main_v30, main_v31, main_v32, main_v33, main_v34]

theorem hostOps1_writes :
    (hostOps1 (F := Ideal) : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))

/-- A buffer the second host stretch does not write holds what the first launch left. -/
theorem W3_keep (c : Dev nD) (r : Ref sig .tc) (hr : r ∉ wr1) :
    W3 (F := Ideal) m ρ c (Proc.devRef .tc r) = W2 m ρ c (Proc.devRef .tc r) :=
  StableHlo.after_of_writes_sub hostOps1 (W2 m ρ c) hostOps1_writes hr

/-! ## What the first launch finds in its four operand arrays -/

theorem V1_arg0 (c : Dev nD) : V1 (F := Ideal) m ρ c main_arg0 = m ((c.tc : Thread nD τ).loc main_arg0) :=
  W1_keep m ρ c main_arg0 (by decide)
theorem V1_arg4 (c : Dev nD) : V1 (F := Ideal) m ρ c main_arg4 = m ((c.tc : Thread nD τ).loc main_arg4) :=
  W1_keep m ρ c main_arg4 (by decide)
theorem V1_v12 (c : Dev nD) : (V1 (F := Ideal) m ρ c main_v12 : FVec Ideal S100000x128 .f32) = (Cert.Gin.aggK (m ((c.tc : Thread nD τ).loc main_arg0)) (m ((c.tc : Thread nD τ).loc main_arg1)) (m ((c.tc : Thread nD τ).loc main_arg2)) (m ((c.tc : Thread nD τ).loc main_arg3))) :=
  W1_v12 m ρ c
/-- The first bias as the launch reads it: a one-row array whose entry `(0, j)` is the vector's entry `j`. -/
theorem V1_row13 (c : Dev nD) :
    (fun j : Fin 512 => (V1 (F := Ideal) m ρ c main_v13 : S1x512.Idx → EReal) (ix2 0 j))
      = fun j => ((m ((c.tc : Thread nD τ).loc main_arg5)) : S512.Idx → EReal) (ix1 j) :=
  funext fun j => (congrFun (W1_v13 m ρ c) (ix2 0 j)).trans (shapeCast_a_1a_apply _ _ 0 j)

/-! ## What the first launch leaves: its operand arrays as found, every buffer that is no array of it as found -/

theorem W2_arg0 (c : Dev nD) : W2 (F := Ideal) m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_v12 (c : Dev nD) : W2 (F := Ideal) m ρ c (Proc.devRef .tc main_v12) = W1 m ρ c (Proc.devRef .tc main_v12) :=
  (W2_arr m ρ c 1).trans (((dat0 (V1 m ρ) c).arrAt_in 1 rfl _).trans (A_eq0 (V1 m ρ) c 1))
theorem W2_arg4 (c : Dev nD) : W2 (F := Ideal) m ρ c (Proc.devRef .tc main_arg4) = W1 m ρ c (Proc.devRef .tc main_arg4) :=
  (W2_arr m ρ c 2).trans (((dat0 (V1 m ρ) c).arrAt_in 2 rfl _).trans (A_eq0 (V1 m ρ) c 2))
theorem W2_v13 (c : Dev nD) : W2 (F := Ideal) m ρ c (Proc.devRef .tc main_v13) = W1 m ρ c (Proc.devRef .tc main_v13) :=
  (W2_arr m ρ c 3).trans (((dat0 (V1 m ρ) c).arrAt_in 3 rfl _).trans (A_eq0 (V1 m ρ) c 3))

/-! ## What the second launch finds in its eight operand arrays -/

theorem V3_arg0 (c : Dev nD) : V3 (F := Ideal) m ρ c main_arg0 = m ((c.tc : Thread nD τ).loc main_arg0) :=
  (W3_keep m ρ c main_arg0 (by decide)).trans ((W2_arg0 m ρ c).trans (W1_keep m ρ c main_arg0 (by decide)))
theorem V3_arg4 (c : Dev nD) : V3 (F := Ideal) m ρ c main_arg4 = m ((c.tc : Thread nD τ).loc main_arg4) :=
  (W3_keep m ρ c main_arg4 (by decide)).trans ((W2_arg4 m ρ c).trans (W1_keep m ρ c main_arg4 (by decide)))
theorem V3_arg8 (c : Dev nD) : V3 (F := Ideal) m ρ c main_arg8 = m ((c.tc : Thread nD τ).loc main_arg8) :=
  (W3_keep m ρ c main_arg8 (by decide)).trans ((W2_of_ne m ρ c main_arg8 (by decide)).trans (W1_keep m ρ c main_arg8 (by decide)))
theorem V3_v12 (c : Dev nD) : (V3 (F := Ideal) m ρ c main_v12 : FVec Ideal S100000x128 .f32) = (Cert.Gin.aggK (m ((c.tc : Thread nD τ).loc main_arg0)) (m ((c.tc : Thread nD τ).loc main_arg1)) (m ((c.tc : Thread nD τ).loc main_arg2)) (m ((c.tc : Thread nD τ).loc main_arg3))) :=
  (W3_keep m ρ c main_v12 (by decide)).trans ((W2_v12 m ρ c).trans (W1_v12 m ρ c))
theorem V3_row13 (c : Dev nD) :
    (fun j : Fin 512 => (V3 (F := Ideal) m ρ c main_v13 : S1x512.Idx → EReal) (ix2 0 j))
      = fun j => ((m ((c.tc : Thread nD τ).loc main_arg5)) : S512.Idx → EReal) (ix1 j) :=
  funext fun j => (congrFun ((W3_keep m ρ c main_v13 (by decide)).trans ((W2_v13 m ρ c).trans (W1_v13 m ρ c))) (ix2 0 j)).trans
    (shapeCast_a_1a_apply _ _ 0 j)
theorem V3_row14 (c : Dev nD) :
    (fun q : Fin 256 => (V3 (F := Ideal) m ρ c main_v14 : S1x256.Idx → EReal) (ix2 0 q))
      = fun q => ((m ((c.tc : Thread nD τ).loc main_arg9)) : S256.Idx → EReal) (ix1 q) :=
  funext fun q => (congrFun ((W3_keep m ρ c main_v14 (by decide)).trans ((W2_of_ne m ρ c main_v14 (by decide)).trans (W1_v14 m ρ c))) (ix2 0 q)).trans
    (shapeCast_a_1a_apply _ _ 0 q)

/-- The scale row the second launch finds, from the first launch's sums array and γ. -/
theorem V3_v30 (c : Dev nD) :
    (V3 (F := Ideal) m ρ c main_v30 : FVec Ideal S1x512 .f32)
      = scaleH (W2 m ρ c (Proc.devRef .tc main_v15)) (m ((c.tc : Thread nD τ).loc main_arg6)) := by
  have e : (W3 (F := Ideal) m ρ c (Proc.devRef .tc main_v30) : FVec Ideal S1x512 .f32)
      = scaleH (W2 m ρ c (Proc.devRef .tc main_v15)) (W2 m ρ c (Proc.devRef .tc main_arg6)) := by
    show StableHlo.after hostOps1 (W2 m ρ c) (Proc.devRef .tc main_v30) = _
    after_results
    rfl
  rw [(W2_of_ne m ρ c main_arg6 (by decide)).trans (W1_keep m ρ c main_arg6 (by decide))] at e
  exact e

/-- The shift row the second launch finds, from the first launch's sums array, γ and β. -/
theorem V3_v34 (c : Dev nD) :
    (V3 (F := Ideal) m ρ c main_v34 : FVec Ideal S1x512 .f32)
      = shiftH (W2 m ρ c (Proc.devRef .tc main_v15)) (m ((c.tc : Thread nD τ).loc main_arg6)) (m ((c.tc : Thread nD τ).loc main_arg7)) := by
  have e : (W3 (F := Ideal) m ρ c (Proc.devRef .tc main_v34) : FVec Ideal S1x512 .f32)
      = shiftH (W2 m ρ c (Proc.devRef .tc main_v15)) (W2 m ρ c (Proc.devRef .tc main_arg6)) (W2 m ρ c (Proc.devRef .tc main_arg7)) := by
    show StableHlo.after hostOps1 (W2 m ρ c) (Proc.devRef .tc main_v34) = _
    open StableHlo in after_results_simp
    rfl
  rw [(W2_of_ne m ρ c main_arg6 (by decide)).trans (W1_keep m ρ c main_arg6 (by decide)),
    (W2_of_ne m ρ c main_arg7 (by decide)).trans (W1_keep m ρ c main_arg7 (by decide))] at e
  exact e

end Cert.KernelIdeal.KValue

end
-- ==== Proof.KValue.lean ====
/-
  The blocked program's result array as one function of its inputs.

  The program is four stretches: host operations, a launch, host operations, a launch. The first stretch forms the weighted
  neighbour sum `a` and views the two bias vectors as one-row arrays. The first launch leaves, per feature, the sum and the
  sum of squares over all nodes of the first linear map's output `u = (1·x + a)·w1 + b1`. The second stretch turns those
  two rows into a scale row `γ · rsqrt(E[u²] − E[u]² + ε)` and a shift row `β − E[u] · γ · rsqrt(…)`. The second launch
  computes `max(u · scale + shift, 0) · w2 + b2` from its eight operand arrays.

  Each launch's operand arrays are walked back to the launch memory: an argument nobody writes is as launched, the
  neighbour sum and the reshaped biases are what the first stretch made of the arguments, and the scale and shift rows are
  the second stretch's functions of the first launch's result. Substituting these into the second launch's whole-array
  value gives `Cert.Gin.kernelOut` of the arguments.
-/
import proofs.«109966_j65283502899905_1_alg».proof.Proof.KFrameRun
import proofs.«109966_j65283502899905_1_alg».proof.Proof.Reg0Value
import proofs.«109966_j65283502899905_1_alg».proof.Proof.Reg1Value
import proofs.«109966_j65283502899905_1_alg».proof.Proof.Agg
import proofs.«109966_j65283502899905_1_alg».proof.Proof.KHost
import Idealize.ShloMosaic.Lib.StableHlo.Run
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The blocked program's result as a function of the launch memory. -/
abbrev kOut (c : Dev nD) : FVec Ideal S100000x256 .f32 :=
  Cert.Gin.kernelOut (m ((c.tc : Thread nD τ).loc main_arg0))
    (Cert.Gin.aggK (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4))
    (fun j => ((m ((c.tc : Thread nD τ).loc main_arg5)) : S512.Idx → EReal) (ix1 j))
    (fun j => ((m ((c.tc : Thread nD τ).loc main_arg6)) : S512.Idx → EReal) (ix1 j))
    (fun j => ((m ((c.tc : Thread nD τ).loc main_arg7)) : S512.Idx → EReal) (ix1 j))
    (m ((c.tc : Thread nD τ).loc main_arg8))
    (fun q => ((m ((c.tc : Thread nD τ).loc main_arg9)) : S256.Idx → EReal) (ix1 q))

/-- The first launch's result array, over the launch memory: the two column sums of the first linear map's output. -/
theorem stats_eq (c : Dev nD) :
    (W2 (F := Ideal) m ρ c (Proc.devRef .tc main_v15) : FVec Ideal S2x512 .f32) = Cert.Gin.statsArr (Cert.Gin.pre1 (m ((c.tc : Thread nD τ).loc main_arg0)) (Cert.Gin.aggK (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (fun j => ((m ((c.tc : Thread nD τ).loc main_arg5)) : S512.Idx → EReal) (ix1 j))) := by
  refine (W2_arr m ρ c 4).trans ((Cert.KernelIdeal.Reg0.final (V1 m ρ) c).trans ?_)
  rw [V1_arg0, V1_v12, V1_arg4, V1_row13]

/-- The scale row the second launch finds is the blocked normalisation's scale of those sums. -/
theorem V3_row30 (c : Dev nD) :
    (fun j : Fin 512 => (V3 (F := Ideal) m ρ c main_v30 : S1x512.Idx → EReal) (ix2 0 j))
      = Cert.Gin.scaleK (Cert.Gin.statsArr (Cert.Gin.pre1 (m ((c.tc : Thread nD τ).loc main_arg0)) (Cert.Gin.aggK (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (fun j => ((m ((c.tc : Thread nD τ).loc main_arg5)) : S512.Idx → EReal) (ix1 j)))) (fun j => ((m ((c.tc : Thread nD τ).loc main_arg6)) : S512.Idx → EReal) (ix1 j)) :=
  funext fun j => by rw [V3_v30, scaleH_apply, stats_eq]

/-- The shift row the second launch finds is the blocked normalisation's shift of those sums. -/
theorem V3_row34 (c : Dev nD) :
    (fun j : Fin 512 => (V3 (F := Ideal) m ρ c main_v34 : S1x512.Idx → EReal) (ix2 0 j))
      = Cert.Gin.shiftK (Cert.Gin.statsArr (Cert.Gin.pre1 (m ((c.tc : Thread nD τ).loc main_arg0)) (Cert.Gin.aggK (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (fun j => ((m ((c.tc : Thread nD τ).loc main_arg5)) : S512.Idx → EReal) (ix1 j)))) (fun j => ((m ((c.tc : Thread nD τ).loc main_arg6)) : S512.Idx → EReal) (ix1 j))
          (fun j => ((m ((c.tc : Thread nD τ).loc main_arg7)) : S512.Idx → EReal) (ix1 j)) :=
  funext fun j => by rw [V3_v34, shiftH_apply, stats_eq]

/-- The last boundary's contents at the result array. -/
theorem out_eq (c : Dev nD) : W4 (F := Ideal) m ρ c (Proc.devRef .tc main_v35) = kOut m c := by
  refine (W4_arr m ρ c 8).trans ((Cert.KernelIdeal.Reg1.final (V3 m ρ) c).trans ?_)
  rw [V3_arg0, V3_v12, V3_arg4, V3_arg8, V3_row13, V3_row14, V3_row30, V3_row34]
  rfl

/-- The run with its result named. -/
theorem run : θ_run (defs (F := Ideal)) (onTc (τ := τ) (main (F := Ideal))) ⟨m, fun _ => 0, ρ⟩ fun r => ∀ c : Dev nD,
      r.2.mem ((c.tc : Thread nD τ).loc main_v35) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (out_eq m ρ c), (h c).2⟩) (Cert.KernelIdeal.GenP.run_named (F := Ideal) m ρ)

end Cert.KernelIdeal.KValue

end
-- ==== Proof.RefTerm.lean ====
/-
  The plain program's result as a term of its ten inputs: its host operations composed in order, the three outlined
  functions (variance, select, rectifier) written out where they are called, cut into the stages of the network.
-/
import proofs.«109966_j65283502899905_1_alg».proof.Proof.Gen.ReferenceIdeal
import proofs.«109966_j65283502899905_1_alg».proof.Proof.Agg

noncomputable section

open Idealize.ShloMosaic Idealize.SL.Sem

namespace Cert.ReferenceIdeal.RefTerm

open Cert.ReferenceIdeal Cert.ReferenceIdeal.Facts₀

/-- The first linear map applied to every node's hidden row `1·x + (neighbour sum)`, plus the bias. -/
def preT (x : FVec Ideal S100000x128 .f32) (src dst : IVec S1600000 32) (ew : FVec Ideal S1600000 .f32)
    (w1 : FVec Ideal S128x512 .f32) (b1 : FVec Ideal S512 .f32) : FVec Ideal S100000x512 .f32 :=
  addf
    (Host.dotGeneral dot_S100000x128_S128x512_S100000x512_1_0_0_1_n_n none
      (addf (mulf (broadcastInDim S100000x128 ![] bcast_S_S100000x128 (constant (F := Ideal) S_ .f32 0x3F800000#32)) x)
        (Cert.Gin.aggR x src dst ew))
      w1)
    (broadcastInDim S100000x512 ![0, 1] bcast_S1x512_S100000x512_0_1 (broadcastInDim S1x512 ![1] bcast_S512_S1x512_1 b1))

/-- Each feature's mean over the nodes. -/
def meanT (u : FVec Ideal S100000x512 .f32) : FVec Ideal S512 .f32 :=
  Host.divf (Host.reduceAdd u (constant (F := Ideal) S_ .f32 0x00000000#32) reducesTo_S100000x512_S512_d0 h_S_)
    (broadcastInDim S512 ![] bcast_S_S512 (constant (F := Ideal) S_ .f32 0x47C35000#32))

/-- The variance function's divisor: the node count less the degrees of freedom it is called with (none). -/
def dofT : FVec Ideal S_ .f32 :=
  subf (constant (F := Ideal) S_ .f32 0x47C35000#32) (sitofp .f32 (constantI S_ 32 0#32))

/-- The variance function's quotient: the mean of the squared deviations from the (kept-dimension) mean. -/
def varQT (u : FVec Ideal S100000x512 .f32) : FVec Ideal S512 .f32 :=
  let q3 : FVec Ideal S1x512 .f32 :=
    Host.divf (broadcastInDim S1x512 ![1] bcast_S512_S1x512_1
        (Host.reduceAdd u (constant (F := Ideal) S_ .f32 0x00000000#32) reducesTo_S100000x512_S512_d0 h_S_))
      (broadcastInDim S1x512 ![] bcast_S_S1x512 (constant (F := Ideal) S_ .f32 0x47C35000#32))
  let q5 : FVec Ideal S100000x512 .f32 := subf u (broadcastInDim S100000x512 ![0, 1] bcast_S1x512_S100000x512_0_1 q3)
  Host.divf (Host.reduceAdd (mulf q5 q5) (constant (F := Ideal) S_ .f32 0x00000000#32) reducesTo_S100000x512_S512_d0 h_S_)
    (broadcastInDim S512 ![] bcast_S_S512 dofT)

/-- The variance: the quotient where the divisor is positive, a fill value otherwise (the select function). -/
def varT (u : FVec Ideal S100000x512 .f32) : FVec Ideal S512 .f32 :=
  select (broadcastInDim S512 ![] bcast_S_S512 (cmpf .ogt dofT (constant (F := Ideal) S_ .f32 0x00000000#32)))
    (varQT u)
    (broadcastInDim S512 ![] bcast_S_S512 (id (constant (F := Ideal) S_ .f32 0x7FC00000#32)))

/-- Centre, scale by the reciprocal root of variance + ε, then by gamma, add beta. -/
def normT (u : FVec Ideal S100000x512 .f32) (γ β : FVec Ideal S512 .f32) : FVec Ideal S100000x512 .f32 :=
  addf
    (mulf
      (mulf
        (subf u (broadcastInDim S100000x512 ![0, 1] bcast_S1x512_S100000x512_0_1 (broadcastInDim S1x512 ![1] bcast_S512_S1x512_1 (meanT u))))
        (broadcastInDim S100000x512 ![0, 1] bcast_S1x512_S100000x512_0_1 (broadcastInDim S1x512 ![1] bcast_S512_S1x512_1
          (Host.rsqrt (addf (varT u) (broadcastInDim S512 ![] bcast_S_S512 (constant (F := Ideal) S_ .f32 0x3727C5AC#32)))))))
      (broadcastInDim S100000x512 ![0, 1] bcast_S1x512_S100000x512_0_1 (broadcastInDim S1x512 ![1] bcast_S512_S1x512_1 γ)))
    (broadcastInDim S100000x512 ![0, 1] bcast_S1x512_S100000x512_0_1 (broadcastInDim S1x512 ![1] bcast_S512_S1x512_1 β))

/-- The rectifier, then the second linear map and its bias. -/
def headT (a : FVec Ideal S100000x512 .f32) (w2 : FVec Ideal S512x256 .f32) (b2 : FVec Ideal S256 .f32) :
    FVec Ideal S100000x256 .f32 :=
  addf
    (Host.dotGeneral dot_S100000x512_S512x256_S100000x256_1_0_0_1_n_n none
      (maximumf a (broadcastInDim S100000x512 ![] bcast_S_S100000x512 (constant (F := Ideal) S_ .f32 0x00000000#32))) w2)
    (broadcastInDim S100000x256 ![0, 1] bcast_S1x256_S100000x256_0_1 (broadcastInDim S1x256 ![1] bcast_S256_S1x256_1 b2))

/-- The plain program from the inputs to the result. -/
def refTerm (x : FVec Ideal S100000x128 .f32) (src dst : IVec S1600000 32) (ew : FVec Ideal S1600000 .f32)
    (w1 : FVec Ideal S128x512 .f32) (b1 γ β : FVec Ideal S512 .f32) (w2 : FVec Ideal S512x256 .f32)
    (b2 : FVec Ideal S256 .f32) : FVec Ideal S100000x256 .f32 :=
  headT (normT (preT x src dst ew w1 b1) γ β) w2 b2

end Cert.ReferenceIdeal.RefTerm

end
-- ==== Proof.RefRun.lean ====
/-
  The plain program runs to its result.

  The program is a straight line of tensor operations: its own fifty, and at the two places where it calls an outlined
  function (the variance, which itself calls the select function; the rectifier) that function's operations over the
  buffers the call names, twenty-five more. Written as one list, the line is run operation by operation: every weakly
  fair execution terminates, nothing faults, and each buffer ends at the fold of the operations over the launch memory.
  At the result buffer the fold is the composition of the operations in order, which is the staged term of RefTerm.lean
  with every intermediate written out; at an argument buffer, which no operation writes, it is the launch contents.
-/
import proofs.«109966_j65283502899905_1_alg».proof.Proof.Gen.ReferenceIdeal
import proofs.«109966_j65283502899905_1_alg».proof.Proof.RefTerm
import Idealize.ShloMosaic.Lib.StableHlo.Run
import Idealize.ShloMosaic.Lib.Tactic

noncomputable section

open Idealize.ShloMosaic Idealize.ShloMosaic.TcCoe Idealize.SL.Sem

namespace Cert.ReferenceIdeal.RefRun

open Cert.ReferenceIdeal Cert.ReferenceIdeal.Gen Idealize.ShloMosaic.StableHlo

variable {F : FTy → Type} [FloatOps F]

/-- The program's seventy-five operations in the order they run, a called function's operations standing where it is
    called, over that call's own buffers: the variance function's nineteen and, inside it, the select function's three
    after the column means; the rectifier's three after the normalisation. -/
abbrev ops : List (HloOp τ sig (Elt F)) :=
  [ -- wrap the source indices, gather the source rows, weight them, scatter-add at the destinations
    nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v7 (broadcastInDim S1600000x1 ![0] bcast_S1600000_S1600000x1_0 : (⟨S1600000, .f32⟩ : BufTy).Contents (Elt F) → (⟨S1600000x1, .f32⟩ : BufTy).Contents (Elt F)),
    unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg2 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    -- one times the node's own row, plus the neighbour sum; the first linear map and its bias
    nullary main_cst_1 (constant S_ .f32 0x3F800000#32),
    unary main_cst_1 main_v13 (broadcastInDim S100000x128 ![] bcast_S_S100000x128 : (⟨S_, .f32⟩ : BufTy).Contents (Elt F) → (⟨S100000x128, .f32⟩ : BufTy).Contents (Elt F)),
    binary main_v13 main_arg0 main_v14 (mulf : (⟨S100000x128, .f32⟩ : BufTy).Contents (Elt F) → (⟨S100000x128, .f32⟩ : BufTy).Contents (Elt F) → (⟨S100000x128, .f32⟩ : BufTy).Contents (Elt F)),
    binary main_v14 main_v12 main_v15 (addf : (⟨S100000x128, .f32⟩ : BufTy).Contents (Elt F) → (⟨S100000x128, .f32⟩ : BufTy).Contents (Elt F) → (⟨S100000x128, .f32⟩ : BufTy).Contents (Elt F)),
    binary main_v15 main_arg4 main_v16 ((fun l r => Host.dotGeneral dot_S100000x128_S128x512_S100000x512_1_0_0_1_n_n none l r) : (⟨S100000x128, .f32⟩ : BufTy).Contents (Elt F) → (⟨S128x512, .f32⟩ : BufTy).Contents (Elt F) → (⟨S100000x512, .f32⟩ : BufTy).Contents (Elt F)),
    unary main_arg5 main_v17 (broadcastInDim S1x512 ![1] bcast_S512_S1x512_1 : (⟨S512, .f32⟩ : BufTy).Contents (Elt F) → (⟨S1x512, .f32⟩ : BufTy).Contents (Elt F)),
    unary main_v17 main_v18 (broadcastInDim S100000x512 ![0, 1] bcast_S1x512_S100000x512_0_1 : (⟨S1x512, .f32⟩ : BufTy).Contents (Elt F) → (⟨S100000x512, .f32⟩ : BufTy).Contents (Elt F)),
    binary main_v16 main_v18 main_v19 (addf : (⟨S100000x512, .f32⟩ : BufTy).Contents (Elt F) → (⟨S100000x512, .f32⟩ : BufTy).Contents (Elt F) → (⟨S100000x512, .f32⟩ : BufTy).Contents (Elt F)),
    -- the column means
    nullary main_cst_2 (constant S_ .f32 0x00000000#32),
    binary main_v19 main_cst_2 main_v20 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    nullary main_cst_3 (constant S_ .f32 0x47C35000#32),
    unary main_cst_3 main_v21 (broadcastInDim S512 ![] bcast_S_S512 : (⟨S_, .f32⟩ : BufTy).Contents (Elt F) → (⟨S512, .f32⟩ : BufTy).Contents (Elt F)),
    binary main_v20 main_v21 main_v22 (Host.divf : (⟨S512, .f32⟩ : BufTy).Contents (Elt F) → (⟨S512, .f32⟩ : BufTy).Contents (Elt F) → (⟨S512, .f32⟩ : BufTy).Contents (Elt F)),
    nullary main_c_4 (constantI S_ 32 0#32),
    -- the variance function, on the pre-activations and the constant above
    TRef.nullary main_call0.cst (constant S_ .f32 0x00000000#32),
    TRef.binary (.of main_v19) main_call0.cst main_call0.v0 (fun x v => Host.reduceAdd x v reducesTo_S100000x512_S512_d0 h_S_),
    TRef.unary main_call0.v0 main_call0.v1 (broadcastInDim S1x512 ![1] bcast_S512_S1x512_1),
    TRef.nullary main_call0.cst_0 (constant S_ .f32 0x47C35000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S100000x512 ![0, 1] bcast_S1x512_S100000x512_0_1),
    TRef.binary (.of main_v19) main_call0.v4 main_call0.v5 subf,
    TRef.binary main_call0.v5 main_call0.v5 main_call0.v6 mulf,
    TRef.unary (.of main_c_4) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    -- the select function inside it: the quotient where the divisor is positive, the fill value elsewhere
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    -- centre, scale by the reciprocal root of variance + ε and by gamma, add beta
    unary main_v22 main_v24 (broadcastInDim S1x512 ![1] bcast_S512_S1x512_1 : (⟨S512, .f32⟩ : BufTy).Contents (Elt F) → (⟨S1x512, .f32⟩ : BufTy).Contents (Elt F)),
    unary main_v24 main_v25 (broadcastInDim S100000x512 ![0, 1] bcast_S1x512_S100000x512_0_1 : (⟨S1x512, .f32⟩ : BufTy).Contents (Elt F) → (⟨S100000x512, .f32⟩ : BufTy).Contents (Elt F)),
    binary main_v19 main_v25 main_v26 (subf : (⟨S100000x512, .f32⟩ : BufTy).Contents (Elt F) → (⟨S100000x512, .f32⟩ : BufTy).Contents (Elt F) → (⟨S100000x512, .f32⟩ : BufTy).Contents (Elt F)),
    nullary main_cst_5 (constant S_ .f32 0x3727C5AC#32),
    unary main_cst_5 main_v27 (broadcastInDim S512 ![] bcast_S_S512 : (⟨S_, .f32⟩ : BufTy).Contents (Elt F) → (⟨S512, .f32⟩ : BufTy).Contents (Elt F)),
    binary main_v23 main_v27 main_v28 (addf : (⟨S512, .f32⟩ : BufTy).Contents (Elt F) → (⟨S512, .f32⟩ : BufTy).Contents (Elt F) → (⟨S512, .f32⟩ : BufTy).Contents (Elt F)),
    unary main_v28 main_v29 (Host.rsqrt : (⟨S512, .f32⟩ : BufTy).Contents (Elt F) → (⟨S512, .f32⟩ : BufTy).Contents (Elt F)),
    unary main_v29 main_v30 (broadcastInDim S1x512 ![1] bcast_S512_S1x512_1 : (⟨S512, .f32⟩ : BufTy).Contents (Elt F) → (⟨S1x512, .f32⟩ : BufTy).Contents (Elt F)),
    unary main_v30 main_v31 (broadcastInDim S100000x512 ![0, 1] bcast_S1x512_S100000x512_0_1 : (⟨S1x512, .f32⟩ : BufTy).Contents (Elt F) → (⟨S100000x512, .f32⟩ : BufTy).Contents (Elt F)),
    binary main_v26 main_v31 main_v32 (mulf : (⟨S100000x512, .f32⟩ : BufTy).Contents (Elt F) → (⟨S100000x512, .f32⟩ : BufTy).Contents (Elt F) → (⟨S100000x512, .f32⟩ : BufTy).Contents (Elt F)),
    unary main_arg6 main_v33 (broadcastInDim S1x512 ![1] bcast_S512_S1x512_1 : (⟨S512, .f32⟩ : BufTy).Contents (Elt F) → (⟨S1x512, .f32⟩ : BufTy).Contents (Elt F)),
    unary main_v33 main_v34 (broadcastInDim S100000x512 ![0, 1] bcast_S1x512_S100000x512_0_1 : (⟨S1x512, .f32⟩ : BufTy).Contents (Elt F) → (⟨S100000x512, .f32⟩ : BufTy).Contents (Elt F)),
    binary main_v32 main_v34 main_v35 (mulf : (⟨S100000x512, .f32⟩ : BufTy).Contents (Elt F) → (⟨S100000x512, .f32⟩ : BufTy).Contents (Elt F) → (⟨S100000x512, .f32⟩ : BufTy).Contents (Elt F)),
    unary main_arg7 main_v36 (broadcastInDim S1x512 ![1] bcast_S512_S1x512_1 : (⟨S512, .f32⟩ : BufTy).Contents (Elt F) → (⟨S1x512, .f32⟩ : BufTy).Contents (Elt F)),
    unary main_v36 main_v37 (broadcastInDim S100000x512 ![0, 1] bcast_S1x512_S100000x512_0_1 : (⟨S1x512, .f32⟩ : BufTy).Contents (Elt F) → (⟨S100000x512, .f32⟩ : BufTy).Contents (Elt F)),
    binary main_v35 main_v37 main_v38 (addf : (⟨S100000x512, .f32⟩ : BufTy).Contents (Elt F) → (⟨S100000x512, .f32⟩ : BufTy).Contents (Elt F) → (⟨S100000x512, .f32⟩ : BufTy).Contents (Elt F)),
    -- the rectifier function
    TRef.nullary main_call1.cst (constant S_ .f32 0x00000000#32),
    TRef.unary main_call1.cst main_call1.v0 (broadcastInDim S100000x512 ![] bcast_S_S100000x512),
    TRef.binary (.of main_v38) main_call1.v0 main_call1.v1 maximumf,
    -- the second linear map and its bias
    binary main_v39 main_arg8 main_v40 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg9 main_v41 (broadcastInDim S1x256 ![1] bcast_S256_S1x256_1 : (⟨S256, .f32⟩ : BufTy).Contents (Elt F) → (⟨S1x256, .f32⟩ : BufTy).Contents (Elt F)),
    unary main_v41 main_v42 (broadcastInDim S100000x256 ![0, 1] bcast_S1x256_S100000x256_0_1 : (⟨S1x256, .f32⟩ : BufTy).Contents (Elt F) → (⟨S100000x256, .f32⟩ : BufTy).Contents (Elt F)),
    binary main_v40 main_v42 main_v43 (addf : (⟨S100000x256, .f32⟩ : BufTy).Contents (Elt F) → (⟨S100000x256, .f32⟩ : BufTy).Contents (Elt F) → (⟨S100000x256, .f32⟩ : BufTy).Contents (Elt F)) ]

-- seventy-five nested binds are re-associated one at a time, each under all the binds before it
set_option maxRecDepth 2048 in
set_option maxHeartbeats 1600000 in
/-- The program is that line: unfolding the three functions at their calls and re-associating the sequencing leaves
    the same chain of steps on both sides. -/
theorem main_eq (c : Dev nD) : main (F := F) c = seq ops := by
  simp only [main, fn_var.body, fn_where.body, fn_relu.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

/-- The line's fold at the result buffer is the staged term at the arguments' contents. -/
theorem out_eq (V : Valuation τ sig (Elt Ideal)) :
    after (ops (F := Ideal)) V (Proc.devRef .tc main_v43)
      = Cert.ReferenceIdeal.RefTerm.refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  rfl

/-- No operation writes an argument's buffer: the fold leaves each of the ten at what it held. -/
theorem arg0_eq (V : Valuation τ sig (Elt F)) :
    after (ops (F := F)) V (Proc.devRef .tc main_arg0) = V (Proc.devRef .tc main_arg0) := by after_results_simp
theorem arg1_eq (V : Valuation τ sig (Elt F)) :
    after (ops (F := F)) V (Proc.devRef .tc main_arg1) = V (Proc.devRef .tc main_arg1) := by after_results_simp
theorem arg2_eq (V : Valuation τ sig (Elt F)) :
    after (ops (F := F)) V (Proc.devRef .tc main_arg2) = V (Proc.devRef .tc main_arg2) := by after_results_simp
theorem arg3_eq (V : Valuation τ sig (Elt F)) :
    after (ops (F := F)) V (Proc.devRef .tc main_arg3) = V (Proc.devRef .tc main_arg3) := by after_results_simp
theorem arg4_eq (V : Valuation τ sig (Elt F)) :
    after (ops (F := F)) V (Proc.devRef .tc main_arg4) = V (Proc.devRef .tc main_arg4) := by after_results_simp
theorem arg5_eq (V : Valuation τ sig (Elt F)) :
    after (ops (F := F)) V (Proc.devRef .tc main_arg5) = V (Proc.devRef .tc main_arg5) := by after_results_simp
theorem arg6_eq (V : Valuation τ sig (Elt F)) :
    after (ops (F := F)) V (Proc.devRef .tc main_arg6) = V (Proc.devRef .tc main_arg6) := by after_results_simp
theorem arg7_eq (V : Valuation τ sig (Elt F)) :
    after (ops (F := F)) V (Proc.devRef .tc main_arg7) = V (Proc.devRef .tc main_arg7) := by after_results_simp
theorem arg8_eq (V : Valuation τ sig (Elt F)) :
    after (ops (F := F)) V (Proc.devRef .tc main_arg8) = V (Proc.devRef .tc main_arg8) := by after_results_simp
theorem arg9_eq (V : Valuation τ sig (Elt F)) :
    after (ops (F := F)) V (Proc.devRef .tc main_arg9) = V (Proc.devRef .tc main_arg9) := by after_results_simp

/-- From any memory with zero counters every weakly fair execution of the program terminates; the result buffer then
    holds the staged term of the ten arguments' launch contents, and every argument holds what it held at launch. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
        = Cert.ReferenceIdeal.RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  exact (θ_run defs _ _).mono
    (fun _ h c => ⟨(h c main_v43).trans (out_eq _),
      (h c main_arg0).trans (arg0_eq _), (h c main_arg1).trans (arg1_eq _), (h c main_arg2).trans (arg2_eq _), (h c main_arg3).trans (arg3_eq _),
      (h c main_arg4).trans (arg4_eq _), (h c main_arg5).trans (arg5_eq _), (h c main_arg6).trans (arg6_eq _), (h c main_arg7).trans (arg7_eq _),
      (h c main_arg8).trans (arg8_eq _), (h c main_arg9).trans (arg9_eq _)⟩)
    (run_seq scopedRefs_eq scopedSems_eq defs main (fun _ => ops) main_eq (fun _ => ops_sub) m ρ)

end Cert.ReferenceIdeal.RefRun

end
-- ==== Proof.RefRead.lean ====
/-
  The plain program read entry by entry.

  Its composed term is the network of Spec.lean, stage by stage. At node i and feature j the first stage is the hidden
  row 1·x + (neighbour sum) against column j of the first weight matrix, plus the bias. Each feature's mean is the column
  sum, started from the zero literal, divided by the node count; its variance is the column sum of the squared deviations
  from that mean divided by the node count less zero degrees of freedom, and the guard on that divisor being positive
  holds, since the divisor is 100000. The normalised entry is (u − mean)·rsqrt(var + ε)·γ + β, the rectifier is the maximum
  with the zero literal, and the last stage is the product with the second weight matrix plus its bias. Nothing here
  needs the numbers to be finite: every step is the reading of one operation at one index.
-/
import proofs.«109966_j65283502899905_1_alg».proof.Proof.RefTerm
import proofs.«109966_j65283502899905_1_alg».proof.Proof.Spec
import proofs.«109966_j65283502899905_1_alg».proof.Proof.LibDot
import Idealize.ShloMosaic.Lib.Pipeline.Value
import Idealize.ShloMosaic.Lib.ValueLayout
import Idealize.ShloMosaic.Lib.IdealHost

noncomputable section

open Idealize.ShloMosaic Idealize.SL.Sem Idealize.ShloMosaic.ValueIdx

namespace Cert.ReferenceIdeal.RefRead

open Cert.ReferenceIdeal Cert.ReferenceIdeal.Gen Cert.ReferenceIdeal.RefTerm Cert.Gin

/-! ### Broadcasts read at an index -/

/-- A one-row matrix copied down 100000 rows reads its only row, at the same column. -/
theorem down512_apply {α : Type} (h : S1x512.BroadcastsInDim S100000x512 (![0, 1] : Fin 2 → Fin S100000x512.rank))
    (v : S1x512.Idx → α) (i : Fin 100000) (j : Fin 512) :
    broadcastInDim S100000x512 ![0, 1] h v (ix2 i j) = v (ix2 (0 : Fin 1) j) :=
  broadcastInDim_apply _ _ _ (ix2 i j) (ix2 (0 : Fin 1) j) (fun a => match a with
    | ⟨0, _⟩ => rfl
    | ⟨1, _⟩ => rfl)

/-- A vector of 512 entries laid out as one row reads the vector at the column. -/
theorem row512_apply {α : Type} (h : S512.BroadcastsInDim S1x512 (![1] : Fin 1 → Fin S1x512.rank))
    (v : S512.Idx → α) (j : Fin 512) :
    broadcastInDim S1x512 ![1] h v (ix2 (0 : Fin 1) j) = v (ix1 j) :=
  broadcastInDim_apply _ _ _ (ix2 (0 : Fin 1) j) (ix1 j) (fun a => match a with
    | ⟨0, _⟩ => rfl)

theorem down256_apply {α : Type} (h : S1x256.BroadcastsInDim S100000x256 (![0, 1] : Fin 2 → Fin S100000x256.rank))
    (v : S1x256.Idx → α) (i : Fin 100000) (q : Fin 256) :
    broadcastInDim S100000x256 ![0, 1] h v (ix2 i q) = v (ix2 (0 : Fin 1) q) :=
  broadcastInDim_apply _ _ _ (ix2 i q) (ix2 (0 : Fin 1) q) (fun a => match a with
    | ⟨0, _⟩ => rfl
    | ⟨1, _⟩ => rfl)

theorem row256_apply {α : Type} (h : S256.BroadcastsInDim S1x256 (![1] : Fin 1 → Fin S1x256.rank))
    (v : S256.Idx → α) (q : Fin 256) :
    broadcastInDim S1x256 ![1] h v (ix2 (0 : Fin 1) q) = v (ix1 q) :=
  broadcastInDim_apply _ _ _ (ix2 (0 : Fin 1) q) (ix1 q) (fun a => match a with
    | ⟨0, _⟩ => rfl)

/-! ### Stage 1: the first linear map -/

theorem preT_apply (x : FVec Ideal S100000x128 .f32) (src dst : IVec S1600000 32) (ew : FVec Ideal S1600000 .f32)
    (w1 : FVec Ideal S128x512 .f32) (b1 : FVec Ideal S512 .f32) (i : Fin 100000) (j : Fin 512) :
    preT x src dst ew w1 b1 (ix2 i j) = pre1 x (aggR x src dst ew) w1 (fun j => b1 (ix1 j)) i j := by
  unfold preT pre1
  rw [addf_apply, down512_apply, row512_apply]
  refine congrArg₂ (· + ·) ?_ rfl
  simp only [Host.dotGeneral]
  refine (Cert.GNN.dotGeneral_plain_apply (M := 100000) (K := 128) (N := 512) none .single _ w1 i j).trans ?_
  refine Finset.sum_congr rfl fun d _ => ?_
  rw [addf_apply, mulf_apply, broadcastInDim_scalar_apply, constant_apply]

/-! ### Stage 2: the column sums, the mean and the variance -/

/-- The sum over the nodes of one feature, started from the zero literal. -/
theorem colsum_apply (u : FVec Ideal S100000x512 .f32) (j : Fin 512) :
    Host.reduceAdd u (constant (F := Ideal) S_ .f32 0x00000000#32) reducesTo_S100000x512_S512_d0 h_S_ (ix1 j)
      = zero32 + ∑ i : Fin 100000, u (ix2 i j) := by
  have hR : Shape.Reduces S100000x512 [0] S512 := by decide
  rw [hostReduceAdd_apply, Ideal.hostReduceAdd_single _ hR, constant_apply]
  show zero32 + ∑ i : Fin 100000, u (hR.lift (ix1 j) i) = zero32 + ∑ i : Fin 100000, u (ix2 i j)
  refine congrArg (fun t => zero32 + t) (Finset.sum_congr rfl fun i _ => congrArg u (funext fun a => Fin.ext ?_))
  match a with
  | ⟨0, _⟩ => rfl
  | ⟨1, _⟩ => rfl

theorem meanT_apply (u : FVec Ideal S100000x512 .f32) (j : Fin 512) :
    meanT u (ix1 j) = meanR (fun i j => u (ix2 i j)) j := by
  unfold meanT meanR
  rw [hostDivf_apply, colsum_apply, broadcastInDim_scalar_apply, constant_apply]

/-- The variance's divisor is the node count: no degrees of freedom are taken off. -/
theorem dofT_apply (k : S_.Idx) : dofT k = cnt32 := by
  unfold dofT
  rw [subf_apply, constant_apply, sitofp_apply]
  show cnt32 - (((0#32 : BitVec 32).toInt : ℝ) : EReal) = cnt32
  have h0 : ((0#32 : BitVec 32).toInt : ℝ) = 0 := by norm_num
  rw [h0, EReal.coe_zero, sub_zero]

/-- The divisor is positive, so the guard selects the quotient. -/
theorem guard_apply (k : S_.Idx) :
    cmpf .ogt dofT (constant (F := Ideal) S_ .f32 0x00000000#32) k = 1#1 := by
  rw [cmpf_apply, dofT_apply, constant_apply, Ideal.cmpf_def]
  have hlt : zero32 < cnt32 := by
    rw [zero32_eq, cnt32_eq]
    exact EReal.coe_pos.mpr (by norm_num)
  simp only [Ideal.cmp, hlt, decide_true, BitVec.ofBool_true]
  rfl

theorem varQT_apply (u : FVec Ideal S100000x512 .f32) (j : Fin 512) :
    varQT u (ix1 j) = varR (fun i j => u (ix2 i j)) j := by
  unfold varQT varR meanR
  dsimp only
  rw [hostDivf_apply, colsum_apply, broadcastInDim_scalar_apply, dofT_apply]
  refine congrArg (fun t => Ideal.div (zero32 + t) cnt32) (Finset.sum_congr rfl fun i _ => ?_)
  rw [mulf_apply, subf_apply, down512_apply, hostDivf_apply, row512_apply, colsum_apply, broadcastInDim_scalar_apply,
    constant_apply]

theorem varT_apply (u : FVec Ideal S100000x512 .f32) (j : Fin 512) :
    varT u (ix1 j) = varR (fun i j => u (ix2 i j)) j := by
  unfold varT
  rw [select_apply, broadcastInDim_scalar_apply, guard_apply, select_one, varQT_apply]

/-! ### Stage 3: normalise and rectify -/

theorem normT_apply (u : FVec Ideal S100000x512 .f32) (γ β : FVec Ideal S512 .f32) (i : Fin 100000) (j : Fin 512) :
    max (normT u γ β (ix2 i j)) zero32
      = actR (fun i j => u (ix2 i j)) (fun j => γ (ix1 j)) (fun j => β (ix1 j)) i j := by
  unfold normT actR
  rw [addf_apply, mulf_apply, mulf_apply, subf_apply, down512_apply, row512_apply, down512_apply, row512_apply,
    down512_apply, row512_apply, down512_apply, row512_apply, meanT_apply]
  show max (((u (ix2 i j) - meanR (fun i j => u (ix2 i j)) j)
      * Ideal.rsqrt (addf (varT u) (broadcastInDim S512 ![] bcast_S_S512 (constant (F := Ideal) S_ .f32 0x3727C5AC#32)) (ix1 j)))
      * γ (ix1 j) + β (ix1 j)) zero32 = _
  rw [addf_apply, varT_apply, broadcastInDim_scalar_apply, constant_apply]

/-! ### Stage 4: the second linear map -/

theorem headT_apply (a : FVec Ideal S100000x512 .f32) (w2 : FVec Ideal S512x256 .f32) (b2 : FVec Ideal S256 .f32)
    (i : Fin 100000) (q : Fin 256) :
    headT a w2 b2 (ix2 i q) = (∑ j : Fin 512, max (a (ix2 i j)) zero32 * w2 (ix2 j q)) + b2 (ix1 q) := by
  unfold headT
  rw [addf_apply, down256_apply, row256_apply]
  refine congrArg₂ (· + ·) ?_ rfl
  simp only [Host.dotGeneral]
  refine (Cert.GNN.dotGeneral_plain_apply (M := 100000) (K := 512) (N := 256) none .single _ w2 i q).trans ?_
  refine Finset.sum_congr rfl fun j _ => ?_
  rw [maximumf_apply, broadcastInDim_scalar_apply, constant_apply]

/-! ### The whole program -/

theorem refTerm_eq (x : FVec Ideal S100000x128 .f32) (src dst : IVec S1600000 32) (ew : FVec Ideal S1600000 .f32)
    (w1 : FVec Ideal S128x512 .f32) (b1 γ β : FVec Ideal S512 .f32) (w2 : FVec Ideal S512x256 .f32)
    (b2 : FVec Ideal S256 .f32) :
    Cert.ReferenceIdeal.RefTerm.refTerm x src dst ew w1 b1 γ β w2 b2
      = Cert.Gin.refOut x (Cert.Gin.aggR x src dst ew) w1 (fun j => b1 (ix1 j)) (fun j => γ (ix1 j)) (fun j => β (ix1 j))
          w2 (fun q => b2 (ix1 q)) := by
  funext y
  obtain ⟨i, q, rfl⟩ : ∃ (i : Fin 100000) (q : Fin 256), y = ix2 i q :=
    ⟨⟨(y 0).val, idx2_lt0 y⟩, ⟨(y 1).val, idx2_lt1 y⟩, eq_ix2 y⟩
  have hU : (fun i j => preT x src dst ew w1 b1 (ix2 i j)) = pre1 x (aggR x src dst ew) w1 (fun j => b1 (ix1 j)) :=
    funext fun i => funext fun j => preT_apply x src dst ew w1 b1 i j
  unfold refTerm refOut
  rw [headT_apply, lin2_apply]
  refine congrArg₂ (· + ·) (Finset.sum_congr rfl fun j _ => ?_) rfl
  rw [normT_apply, hU]

end Cert.ReferenceIdeal.RefRead

end
-- ==== Proof.Bridge.lean ====
/-
  Over finite numbers the blocked normalisation and the plain one are the same function.

  Per feature, with `u` the column of 100000 pre-activations, `μ = (∑ u)/n`: the variance `(∑ u²)/n − μ²` is
  `(∑ (u − μ)²)/n`, it is non-negative, so `var + ε` is positive and its reciprocal square root `r` is a real; and
  `u·(γ·r) + (β − (μ·γ)·r) = ((u − μ)·r)·γ + β`. All of this is real arithmetic once every entry is known to be a real.
-/
import proofs.«109966_j65283502899905_1_alg».proof.Proof.Spec
import Mathlib.Algebra.BigOperators.Ring.Finset
import Mathlib.Algebra.Order.BigOperators.Ring.Finset
import Mathlib.Tactic.Choose
import Mathlib.Tactic.FieldSimp
import Mathlib.Tactic.Ring

noncomputable section

namespace Cert.Gin

open Idealize.ShloMosaic Idealize.ShloMosaic.ValueIdx

/-! ### Real arithmetic -/

/-- A finite sum of reals, read in the extended reals, is the sum of the readings. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert k s hk ih => rw [Finset.sum_insert hk, Finset.sum_insert hk, ih, EReal.coe_add]

/-- Mean of squares minus squared mean is the mean squared deviation. -/
theorem msq_sub_sq {ι : Type} [Fintype ι] (c : ι → ℝ) (n : ℝ) (hcard : (Fintype.card ι : ℝ) = n) (hn : n ≠ 0) :
    (∑ i, c i * c i) / n - (∑ i, c i) / n * ((∑ i, c i) / n)
      = (∑ i, (c i - (∑ i, c i) / n) * (c i - (∑ i, c i) / n)) / n := by
  generalize hμ : (∑ i, c i) / n = μ
  have hs : ∑ i, c i = μ * n := by rw [← hμ]; field_simp
  have hexp : ∀ i, (c i - μ) * (c i - μ) = c i * c i - 2 * μ * c i + μ * μ := fun i => by ring
  have hdev : ∑ i, (c i - μ) * (c i - μ) = (∑ i, c i * c i) - 2 * μ * (∑ i, c i) + n * (μ * μ) := by
    simp only [hexp, Finset.sum_add_distrib, Finset.sum_sub_distrib, ← Finset.mul_sum, Finset.sum_const,
      Finset.card_univ, nsmul_eq_mul, hcard]
    ring
  rw [hdev, hs]
  field_simp
  ring

/-- The mean squared deviation is not negative. -/
theorem dev_nonneg {ι : Type} [Fintype ι] (c : ι → ℝ) (μ n : ℝ) (hn : 0 < n) :
    0 ≤ (∑ i, (c i - μ) * (c i - μ)) / n :=
  div_nonneg (Finset.sum_nonneg fun i _ => mul_self_nonneg (c i - μ)) hn.le

/-- The reciprocal square root at a positive real is the real `1/√r`. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

theorem card_nodes : (Fintype.card (Fin 100000) : ℝ) = 100000 := by
  rw [Fintype.card_fin]; norm_num

/-! ### The two column sums -/

theorem statsArr_zero (U : Fin 100000 → Fin 512 → EReal) (j : Fin 512) :
    statsArr U (ix2 0 j) = ∑ i : Fin 100000, U i j := if_pos rfl

theorem statsArr_one (U : Fin 100000 → Fin 512 → EReal) (j : Fin 512) :
    statsArr U (ix2 1 j) = ∑ i : Fin 100000, U i j * U i j := if_neg Nat.one_ne_zero

/-! ### One feature at a time -/

section Column

variable (U : Fin 100000 → Fin 512 → EReal) (u : Fin 100000 → Fin 512 → ℝ)
  (hU : ∀ i j, U i j = ((u i j : ℝ) : EReal))

include hU

theorem meanK_real (j : Fin 512) :
    meanK (statsArr U) j = (((∑ i, u i j) / 100000 : ℝ) : EReal) := by
  rw [meanK, statsArr_zero, cnt32_eq, Ideal.div_coe (by norm_num)]
  simp only [hU]
  rw [coe_sum, ← EReal.coe_mul, mul_one_div]

theorem msqK_real (j : Fin 512) :
    msqK (statsArr U) j = (((∑ i, u i j * u i j) / 100000 : ℝ) : EReal) := by
  rw [msqK, statsArr_one, cnt32_eq, Ideal.div_coe (by norm_num)]
  simp only [hU, ← EReal.coe_mul]
  rw [coe_sum, ← EReal.coe_mul, mul_one_div]

theorem meanR_real (j : Fin 512) :
    meanR U j = (((∑ i, u i j) / 100000 : ℝ) : EReal) := by
  rw [meanR, zero32_eq, zero_add, cnt32_eq, Ideal.div_coe (by norm_num)]
  simp only [hU]
  rw [coe_sum, ← EReal.coe_mul, mul_one_div]

theorem varR_real (j : Fin 512) :
    varR U j = (((∑ i, (u i j - (∑ i, u i j) / 100000) * (u i j - (∑ i, u i j) / 100000)) / 100000 : ℝ) : EReal) := by
  rw [varR, meanR_real U u hU, zero32_eq, zero_add, cnt32_eq, Ideal.div_coe (by norm_num)]
  simp only [hU, ← EReal.coe_sub, ← EReal.coe_mul]
  rw [coe_sum, ← EReal.coe_mul, mul_one_div]

/-- Both programs reach the same real reciprocal square root. -/
theorem inv_real (j : Fin 512) : ∃ ρ : ℝ,
    invK (statsArr U) j = ((ρ : ℝ) : EReal) ∧ Ideal.rsqrt (varR U j + eps32) = ((ρ : ℝ) : EReal) := by
  obtain ⟨e, he, hee⟩ := eps32_pos
  have hid := msq_sub_sq (fun i => u i j) 100000 card_nodes (by norm_num)
  have hnn := dev_nonneg (fun i => u i j) ((∑ i, u i j) / 100000) 100000 (by norm_num)
  refine ⟨(Real.sqrt ((∑ i, (u i j - (∑ i, u i j) / 100000) * (u i j - (∑ i, u i j) / 100000)) / 100000 + e))⁻¹, ?_, ?_⟩
  · rw [invK, msqK_real U u hU, meanK_real U u hU, hee, ← EReal.coe_mul, ← EReal.coe_sub, ← EReal.coe_add, hid]
    exact rsqrt_pos (add_pos_of_nonneg_of_pos hnn he)
  · rw [varR_real U u hU, hee, ← EReal.coe_add]
    exact rsqrt_pos (add_pos_of_nonneg_of_pos hnn he)

/-- The folded multiply-add and the centred form give the same activation. -/
theorem act_eq (γ β : Fin 512 → EReal) (hγ : FinRow γ) (hβ : FinRow β) (i : Fin 100000) (j : Fin 512) :
    actK U (scaleK (statsArr U) γ) (shiftK (statsArr U) γ β) i j = actR U γ β i j := by
  obtain ⟨g, hg⟩ := hγ j
  obtain ⟨b, hb⟩ := hβ j
  obtain ⟨ρ, hρK, hρR⟩ := inv_real U u hU j
  rw [actK, actR, scaleK, shiftK, hρK, hρR, meanK_real U u hU, meanR_real U u hU, hU i j, hg, hb]
  congr 1
  simp only [← EReal.coe_mul, ← EReal.coe_sub, ← EReal.coe_add]
  congr 1
  ring

end Column

/-! ### The first linear map keeps entries real -/

theorem pre1_real (x a : FVec Ideal ⟨2, ![100000, 128]⟩ .f32) (w1 : FVec Ideal ⟨2, ![128, 512]⟩ .f32)
    (b1 : Fin 512 → EReal) (hx : Fin32 x) (ha : Fin32 a) (hw1 : Fin32 w1) (hb1 : FinRow b1) :
    ∃ u : Fin 100000 → Fin 512 → ℝ, ∀ i j, pre1 x a w1 b1 i j = ((u i j : ℝ) : EReal) := by
  choose xr hxr using hx
  choose ar har using ha
  choose wr hwr using hw1
  choose br hbr using hb1
  refine ⟨fun i j => (∑ d : Fin 128, (1 * xr (ix2 i d) + ar (ix2 i d)) * wr (ix2 d j)) + br j, fun i j => ?_⟩
  rw [pre1, one32_eq]
  simp only [hxr, har, hwr, hbr, ← EReal.coe_mul, ← EReal.coe_add]
  rw [coe_sum, ← EReal.coe_add]

/-- The two programs agree when the node features, the neighbour sum, the first layer's weights and bias and the
    normalisation's scale and offset are all finite. (The second layer needs nothing: both apply it to equal activations.) -/
theorem kernelOut_eq_refOut (x a : FVec Ideal ⟨2, ![100000, 128]⟩ .f32) (w1 : FVec Ideal ⟨2, ![128, 512]⟩ .f32)
    (b1 γ β : Fin 512 → EReal) (w2 : FVec Ideal ⟨2, ![512, 256]⟩ .f32) (b2 : Fin 256 → EReal)
    (hx : Fin32 x) (ha : Fin32 a) (hw1 : Fin32 w1) (hb1 : FinRow b1) (hγ : FinRow γ) (hβ : FinRow β) :
    kernelOut x a w1 b1 γ β w2 b2 = refOut x a w1 b1 γ β w2 b2 := by
  obtain ⟨u, hu⟩ := pre1_real x a w1 b1 hx ha hw1 hb1
  have hact : actK (pre1 x a w1 b1) (scaleK (statsArr (pre1 x a w1 b1)) γ) (shiftK (statsArr (pre1 x a w1 b1)) γ β)
      = actR (pre1 x a w1 b1) γ β :=
    funext fun i => funext fun j => act_eq (pre1 x a w1 b1) u hu γ β hγ hβ i j
  rw [kernelOut, mlpOut, refOut, hact]

end Cert.Gin

end
-- ==== Proof.Finite.lean ====
/-
  The inputs are real numbers, and so is the neighbour sum built from them.

  Two facts. First, what the precondition gives: it is a conjunction, one conjunct per float input, each saying that
  "|v| < +∞ at every index", folded by "and" over the whole array, is true. A fold by "and" that is true met only
  trues, so |v i| < +∞ at each index; and an extended real with max(x, −x) < +∞ is neither +∞ nor −∞, hence real.

  Second, the neighbour sum of real data is real. An entry of it is 0 plus a finite sum of update entries; an update
  entry is a product of one entry of `x` (the gathered row is read off `x` at some position) and one edge weight;
  products and finite sums of reals are reals. Which updates land on a given entry never matters: the set of them is
  some finite set, and that is all the argument uses.
-/
import proofs.«109966_j65283502899905_1_alg».proof.Defs
import proofs.«109966_j65283502899905_1_alg».proof.Proof.Gen.KernelIdeal
import proofs.«109966_j65283502899905_1_alg».proof.Proof.Gen.Pre_finite_inputs
import proofs.«109966_j65283502899905_1_alg».proof.Proof.Agg
import Idealize.ShloMosaic.Lib.ReduceAll

noncomputable section

open Idealize.ShloMosaic Idealize.SL.Sem Idealize.ShloMosaic.ValueIdx

namespace Cert.Gin

/-- A finite sum of real numbers is a real number. -/
theorem sum_real {ι : Type} (s : Finset ι) (f : ι → EReal) (h : ∀ j ∈ s, ∃ r : ℝ, f j = ((r : ℝ) : EReal)) :
    ∃ r : ℝ, ∑ j ∈ s, f j = ((r : ℝ) : EReal) := by
  classical
  induction s using Finset.induction_on with
  | empty => exact ⟨0, by simp⟩
  | insert a s ha ih =>
    obtain ⟨r₁, h₁⟩ := h a (Finset.mem_insert_self a s)
    obtain ⟨r₂, h₂⟩ := ih (fun j hj => h j (Finset.mem_insert_of_mem hj))
    exact ⟨r₁ + r₂, by rw [Finset.sum_insert ha, h₁, h₂, EReal.coe_add]⟩

/-- Reading an array at computed positions keeps its entries real. -/
theorem fin_gather {s si t : Shape} {w : Nat} (d : GatherDims s si t) (x : FVec Ideal s .f32) (idx : IVec si w)
    (hx : Fin32 x) : Fin32 (Host.gather d x idx) :=
  fun j => hx (d.operandIdx j idx)

/-- Repeating an array along new axes keeps its entries real. -/
theorem fin_bcast {s t : Shape} (dims : Fin s.rank → Fin t.rank) (h : s.BroadcastsInDim t dims) (x : FVec Ideal s .f32)
    (hx : Fin32 x) : Fin32 (broadcastInDim t dims h x) :=
  fun _ => hx _

/-- An entrywise product of real arrays is real. -/
theorem fin_mul {s : Shape} (x y : FVec Ideal s .f32) (hx : Fin32 x) (hy : Fin32 y) : Fin32 (mulf x y) := by
  intro j
  obtain ⟨a, ha⟩ := hx j
  obtain ⟨b, hb⟩ := hy j
  refine ⟨a * b, ?_⟩
  show x j * y j = _
  rw [ha, hb, EReal.coe_mul]

/-- Adding updates into a real array at scattered positions leaves it real: each entry is the old entry plus a finite
    sum of update entries. -/
theorem fin_scatterAdd {s si su : Shape} {w : Nat} (d : ScatterDims s si su) (x : FVec Ideal s .f32) (idx : IVec si w)
    (upd : FVec Ideal su .f32) (hx : Fin32 x) (hu : Fin32 upd) : Fin32 (Host.scatterAdd d x idx upd) := by
  intro i
  obtain ⟨r, hr⟩ := hx i
  simp only [Host.scatterAdd, Ideal.hostScatterAdd_def, Ideal.hostScatterAdd]
  generalize Finset.univ.filter (fun j => d.resultIdx? j idx = some i) = S
  obtain ⟨q, hq⟩ := sum_real S upd (fun j _ => hu j)
  exact ⟨r + q, by rw [hr, hq, EReal.coe_add]⟩

/-- The zero array is real. -/
theorem fin_zero {s : Shape} : Fin32 (constant (F := Ideal) s .f32 0x00000000#32) := by
  intro _
  refine ⟨0, ?_⟩
  show Ideal.ofBits .f32 0x00000000#32 = _
  rw [Ideal.ofBits_zero_f32, EReal.coe_zero]

/-- A sum of products of finite entries, added into zeros, is finite: each entry of the neighbour sum is a finite sum of
    reals (a gathered row entry is an entry of `x`; an update landing outside the array adds nothing). -/
theorem aggK_fin (x : FVec Ideal Cert.KernelIdeal.S100000x128 .f32) (src dst : IVec Cert.KernelIdeal.S1600000 32)
    (ew : FVec Ideal Cert.KernelIdeal.S1600000 .f32) (hx : Fin32 x) (hew : Fin32 ew) : Fin32 (aggK x src dst ew) := by
  unfold aggK
  refine fin_scatterAdd _ _ _ _ (fin_bcast _ _ _ fin_zero) (fin_mul _ _ (fin_gather _ _ _ hx) ?_)
  exact fin_bcast _ _ _ (fin_bcast _ _ _ hew)

/-- The scalar shape has a single index. -/
instance subsingleton_scalarIdx : Subsingleton Cert.Pre_finite_inputs.S_.Idx := ⟨fun _ _ => funext fun d => d.elim0⟩

/-- The bit pattern with all exponent bits set and no fraction bits denotes +∞. -/
theorem inf32_eq : Ideal.ofBits .f32 0x7F800000#32 = (⊤ : EReal) := by simp [Ideal.ofBits, Ideal.ieee]

/-- An extended real whose absolute value lies strictly below +∞ is a real number: for +∞ and for −∞ the larger of the
    number and its negative is +∞ itself. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- One conjunct of the precondition: if "`|v| < +∞` at every index", reduced by "and" over all axes, comes out true,
    then every entry of `v` is real. -/
theorem fin_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf v) (broadcastInDim s ![] hb (constant (F := Ideal) Cert.Pre_finite_inputs.S_ .f32 0x7F800000#32)))
      init hr hu j = 1#1) : Fin32 v := by
  intro i
  have h1 := Host.reduce_andi_all _ init hr hu j e i
  have h2 : Ideal.cmp .olt (max (v i) (-(v i))) (Ideal.ofBits .f32 0x7F800000#32) = 1#1 := h1
  rw [inf32_eq] at h2
  have h3 : max (v i) (-(v i)) < ⊤ := by
    by_contra hn
    simp [Ideal.cmp, hn] at h2
  exact real_of_abs_lt_top _ h3

/-- The precondition says every float input is finite: each of the eight float arrays holds real numbers only. -/
theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Fin32 (s := Cert.KernelIdeal.S100000x128) (m ((c.tc : Thread Cert.KernelIdeal.nD Cert.KernelIdeal.τ).loc Cert.KernelIdeal.main_arg0))
    ∧ Fin32 (s := Cert.KernelIdeal.S1600000) (m ((c.tc : Thread Cert.KernelIdeal.nD Cert.KernelIdeal.τ).loc Cert.KernelIdeal.main_arg3))
    ∧ Fin32 (s := Cert.KernelIdeal.S128x512) (m ((c.tc : Thread Cert.KernelIdeal.nD Cert.KernelIdeal.τ).loc Cert.KernelIdeal.main_arg4))
    ∧ Fin32 (s := Cert.KernelIdeal.S512) (m ((c.tc : Thread Cert.KernelIdeal.nD Cert.KernelIdeal.τ).loc Cert.KernelIdeal.main_arg5))
    ∧ Fin32 (s := Cert.KernelIdeal.S512) (m ((c.tc : Thread Cert.KernelIdeal.nD Cert.KernelIdeal.τ).loc Cert.KernelIdeal.main_arg6))
    ∧ Fin32 (s := Cert.KernelIdeal.S512) (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2] at h0
  obtain ⟨h0, -⟩ := IntOp.andi_eq_one.1 h0
  obtain ⟨h0, -⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨fin_of_all _ _ _ _ _ _ e0, fin_of_all _ _ _ _ _ _ e3, fin_of_all _ _ _ _ _ _ e4, fin_of_all _ _ _ _ _ _ e5,
    fin_of_all _ _ _ _ _ _ e6, fin_of_all _ _ _ _ _ _ e7⟩

end Cert.Gin

end
-- ==== Proof.lean ====
/-
  The certificate of the message-passing layer: a weighted neighbour sum, a linear map, batch normalisation over the
  100000 nodes, a rectifier and a second linear map.

  The blocked program computes the batch statistics in one launch (per feature, the sum and the sum of squares over the
  nodes, accumulated row block by row block), turns them on the host into one scale and one shift per feature, and in a
  second launch recomputes the first linear map and applies `u·scale + shift`, the rectifier and the second map, row
  block by row block. The plain program centres, scales by the reciprocal root of the variance `E[(u − mean)²] + ε`,
  multiplies by gamma, adds beta. Both take the same neighbour sum.

  The frames of the two printed kernels are the generated frame certificates; the plain program's frame is its run with
  the result dropped. The ideal pass rewrote nothing, so the idealisation claim is trivially true. For the equivalence:
  the blocked program's result array is the fold of its four segments read back to the inputs (KValue.lean over the two
  launches' values, Reg0Value.lean and Reg1Value.lean); the plain program's is its composed term read entry by entry
  (RefRun.lean, RefRead.lean); and over finite inputs — which the precondition gives, and which make the neighbour sum
  finite (Finite.lean) — the two normalisations are one function of real numbers (Bridge.lean): the variance identity
  `E[u²] − E[u]² = E[(u − E u)²]` and `u·(γ r) + (β − μ γ r) = (u − μ) r γ + β`.
-/
import proofs.«109966_j65283502899905_1_alg».proof.Defs
import proofs.«109966_j65283502899905_1_alg».proof.Proof.Gen.Kernel
import proofs.«109966_j65283502899905_1_alg».proof.Proof.Gen.Kernel.Frame
import proofs.«109966_j65283502899905_1_alg».proof.Proof.Gen.KernelIdeal
import proofs.«109966_j65283502899905_1_alg».proof.Proof.Gen.KernelIdeal.Frame
import proofs.«109966_j65283502899905_1_alg».proof.Proof.Gen.ReferenceIdeal
import proofs.«109966_j65283502899905_1_alg».proof.Proof.Gen.Pre_finite_inputs
import proofs.«109966_j65283502899905_1_alg».proof.Proof.KValue
import proofs.«109966_j65283502899905_1_alg».proof.Proof.RefRun
import proofs.«109966_j65283502899905_1_alg».proof.Proof.RefRead
import proofs.«109966_j65283502899905_1_alg».proof.Proof.Bridge
import proofs.«109966_j65283502899905_1_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The plain program's run, its result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- A finite vector's entries, listed by position, are finite. -/
theorem finRow_of_fin32 {n : ℕ} (v : FVec Ideal ⟨1, ![n]⟩ .f32) (h : Cert.Gin.Fin32 v) :
    Cert.Gin.FinRow (fun j : Fin n => v (ix1 j)) := fun j => h (ix1 j)

/-- Both programs end with equal results: the blocked one at the statistics-then-affine form, the plain one at the
    centred form, of inputs that agree and are finite. -/
theorem algebraic : Cert.algebraic_KernelIdeal_ReferenceIdeal := by
  intro m ρ m' ρ' hpre hagree
  refine ⟨fun c => Cert.KernelIdeal.KValue.kOut m c, Cert.KernelIdeal.KValue.run m ρ, ?_⟩
  refine (θ_run Cert.ReferenceIdeal.defs _ _).mono (fun _ h c => ⟨(h c).1.trans ?_, (h c).2⟩) (Cert.ReferenceIdeal.RefRun.run m' ρ')
  obtain ⟨h0, h1, h2, h3, h4, h5, h6, h7, h8, h9⟩ := hagree c
  rw [h0, h1, h2, h3, h4, h5, h6, h7, h8, h9, Cert.ReferenceIdeal.RefRead.refTerm_eq]
  obtain ⟨fx, few, fw1, fb1, fγ, fβ⟩ := Cert.Gin.fin_of_pre m hpre c
  have fa := Cert.Gin.aggK_fin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) fx few
  exact (Cert.Gin.kernelOut_eq_refOut _ _ _ _ _ _ _ _ fx fa fw1
    (finRow_of_fin32 _ fb1) (finRow_of_fin32 _ fγ) (finRow_of_fin32 _ fβ)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
